-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x2048x2048 : Shape := ⟨3, ![1, 2048, 2048]⟩
abbrev S8192x2048 : Shape := ⟨2, ![8192, 2048]⟩
abbrev S_ : Shape := ⟨0, ![]⟩

class Facts : Prop where
  bcast_S_S1x2048x2048 : S_.BroadcastsInDim S1x2048x2048 (![] : Fin 0 → Fin S1x2048x2048.rank)
  reducesTo_S1x2048x2048_S_d0_1_2 : S1x2048x2048.ReducesTo [0, 1, 2] S_
  h_S_ : 0 < S_.numel
  bcast_S_S8192x2048 : S_.BroadcastsInDim S8192x2048 (![] : Fin 0 → Fin S8192x2048.rank)
  reducesTo_S8192x2048_S_d0_1 : S8192x2048.ReducesTo [0, 1] S_

variable [Facts]

def fn {F : FTy → Type} [FloatOps F] (main_arg0 : FVec F S1x2048x2048 .f32) (main_arg1 : FVec F S8192x2048 .f32) : IVec S_ 1 :=
  let main_v0 : FVec F S1x2048x2048 .f32 := Host.absf main_arg0
  let main_cst : FVec F S_ .f32 := constant S_ .f32 0x7F800000#32
  let main_v1 : FVec F S1x2048x2048 .f32 := broadcastInDim S1x2048x2048 ![] bcast_S_S1x2048x2048 main_cst
  let main_v2 : IVec S1x2048x2048 1 := cmpf .olt main_v0 main_v1
  let main_c : IVec S_ 1 := constantI S_ 1 1#1
  let main_v3 : IVec S_ 1 := (fun x v => Host.reduce IntOp.andi x v reducesTo_S1x2048x2048_S_d0_1_2 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  main_v8
-- ==== Kernel.lean ====
abbrev S1x2048x2048 : Shape := ⟨3, ![1, 2048, 2048]⟩
abbrev S8192x2048 : Shape := ⟨2, ![8192, 2048]⟩
abbrev S2048x2048 : Shape := ⟨2, ![2048, 2048]⟩
abbrev S2048x8192 : Shape := ⟨2, ![2048, 8192]⟩
abbrev S512x2048 : Shape := ⟨2, ![512, 2048]⟩
abbrev S2048x512 : Shape := ⟨2, ![2048, 512]⟩
abbrev S1x512 : Shape := ⟨2, ![1, 512]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S1x2048x2048, .f32⟩
  | .hbm, ⟨1, _⟩ => ⟨S8192x2048, .f32⟩
  | .hbm, ⟨2, _⟩ => ⟨S2048x2048, .f32⟩
  | .hbm, ⟨3, _⟩ => ⟨S2048x2048, .f32⟩
  | .hbm, ⟨4, _⟩ => ⟨S2048x2048, .bf16⟩
  | .hbm, ⟨5, _⟩ => ⟨S2048x8192, .f32⟩
  | .local _ .vmem, ⟨0, _⟩ => ⟨S2048x2048, .bf16⟩
  | .local _ .vmem, ⟨1, _⟩ => ⟨S512x2048, .f32⟩
  | .local _ .vmem, ⟨2, _⟩ => ⟨S512x2048, .f32⟩
  | .local _ .vmem, ⟨3, _⟩ => ⟨S2048x512, .f32⟩
  | .local _ .vmem, ⟨4, _⟩ => ⟨S2048x512, .f32⟩
  | .local _ .vmem, ⟨5, _⟩ => ⟨S512x2048, .bf16⟩
  | .local _ .vmem, ⟨6, _⟩ => ⟨S512x2048, .bf16⟩
  | .local _ .vmem, ⟨7, _⟩ => ⟨S1x512, .f32⟩
  | .local _ .vmem, ⟨8, _⟩ => ⟨S1x512, .f32⟩
  | _, _ => ⟨S1x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![17], ![false]⟩

def k0_cond1 (i : grid0.Coords) : BitVec 1 :=
  let arg0 : BitVec 32 := BitVec.ofNat 32 (i 0).val
  let c2_i32 : BitVec 32 := 2#32
  let v0 : BitVec 32 := Scalar.remsi arg0 c2_i32
  let c0_i32 : BitVec 32 := 0#32
  let v1 : BitVec 1 := Scalar.cmpi .eq v0 c0_i32
  let v2 : BitVec 32 := Scalar.extui v1
  let c0_i32_0 : BitVec 32 := 0#32
  let v3 : BitVec 1 := Scalar.cmpi .ne v2 c0_i32_0
  v3

def k0_cond2 (i : grid0.Coords) : BitVec 1 :=
  let arg0 : BitVec 32 := BitVec.ofNat 32 (i 0).val
  let c2_i32 : BitVec 32 := 2#32
  let v0 : BitVec 32 := Scalar.remsi arg0 c2_i32
  let c0_i32 : BitVec 32 := 0#32
  let v1 : BitVec 1 := Scalar.cmpi .eq v0 c0_i32
  let v_true : BitVec 1 := 1#1
  let v4 : BitVec 1 := Scalar.xori v1 v_true
  let v5 : BitVec 32 := Scalar.extui v4
  let c0_i32_1 : BitVec 32 := 0#32
  let v6 : BitVec 1 := Scalar.cmpi .ne v5 c0_i32_1
  v6

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

abbrev stage0_0 : Fin 1 → Memref sig .tc .vmem S2048x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1x2048x2048_S2048x2048 : S1x2048x2048.ShapeCasts S2048x2048
  transposes_S2048x2048_S2048x2048_1_0 : S2048x2048.Transposes [1, 0] S2048x2048
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  reduces_S512x2048_S512 : S512x2048.Reduces [1] S512
  shapeCasts_S512_S512x1 : S512.ShapeCasts S512x1
  broadcasts_S512x1_S512x2048 : S512x1.Broadcasts S512x2048
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  shapeCasts_S512x2048_S512x2048 : S512x2048.ShapeCasts S512x2048
  packedbf16_S512x2048_S512x2048_0_0 : (Rect.unit (s := S512x2048) ![0, 0] S512x2048.size inb_S512x2048_S512x2048_0_0).PackedRows (EltTy.packing .bf16)
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  dot_S2048x2048_S512x2048_S2048x512_1_1_0_0_n_n_wf : DotDims.WF S2048x2048 S512x2048 S2048x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S2048x2048.size a
  hwx0_0 : ∀ i : grid0.Coords, EltTy.bits .bf16 = 32 ∨ (Rect.block (s := S2048x2048) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S8192x2048.size a
  hwx0_1 : ∀ i : grid0.Coords, EltTy.bits .f32 = 32 ∨ (Rect.block (s := S8192x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x512.size a ≤ S2048x8192.size a
  hwx0_2 : ∀ i : grid0.Coords, EltTy.bits .f32 = 32 ∨ (Rect.block (s := S2048x8192) S2048x512.size (cc0_transform_2 i) (hinb0_2 i)).WholeWords (EltTy.packing .f32)

variable [Facts₀]

def dot_S2048x2048_S512x2048_S2048x512_1_1_0_0_n_n : DotDims S2048x2048 S512x2048 S2048x512 where
  lhsContracting := [1]
  rhsContracting := [1]
  lhsNonContracting := [0]
  rhsNonContracting := [0]
  lhsBatch := []
  rhsBatch := []
  wf := dot_S2048x2048_S512x2048_S2048x512_1_1_0_0_n_n_wf

abbrev win0_0 : Pipeline.Window sig grid0 :=
  Pipeline.Window.ofSpec (Memref.whole main_v2) S2048x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S2048x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S1x2048x2048 : Shape := ⟨3, ![1, 2048, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S2048x2048 : Shape := ⟨2, ![2048, 2048]⟩
abbrev S2048x8192 : Shape := ⟨2, ![2048, 8192]⟩

abbrev nBuf : Space → Nat
  | .hbm => 19
  | .vmem => 0
  | .smem => 0
  | _ => 0

abbrev bufTy : (tb : Table) → Fin (tcTables nBuf tb) → BufTy
  | .hbm, ⟨0, _⟩ => ⟨S1x2048x2048, .f32⟩
  | .hbm, ⟨1, _⟩ => ⟨S8192x2048, .f32⟩
  | .hbm, ⟨2, _⟩ => ⟨S_, .f32⟩
  | .hbm, ⟨3, _⟩ => ⟨S8192, .f32⟩
  | .hbm, ⟨4, _⟩ => ⟨S_, .f32⟩
  | .hbm, ⟨5, _⟩ => ⟨S8192, .f32⟩
  | .hbm, ⟨6, _⟩ => ⟨S8192, .f32⟩
  | .hbm, ⟨7, _⟩ => ⟨S8192x1, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S8192x2048, .f32⟩
  | .hbm, ⟨15, _⟩ => ⟨S8192x2048, .f32⟩
  | .hbm, ⟨16, _⟩ => ⟨S2048x2048, .f32⟩
  | .hbm, ⟨17, _⟩ => ⟨S8192x2048, .f32⟩
  | .hbm, ⟨18, _⟩ => ⟨S2048x8192, .f32⟩
  | _, _ => ⟨S1x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x2048_0_1 : S8192x1.BroadcastsInDim S8192x2048 (![0, 1] : Fin 2 → Fin S8192x2048.rank)
  shapeCasts_S1x2048x2048_S2048x2048 : S1x2048x2048.ShapeCasts S2048x2048
  transposes_S8192x2048_S2048x8192_1_0 : S8192x2048.Transposes [1, 0] S2048x8192
  dot_S8192x2048_S2048x2048_S8192x2048_1_0_0_1_n_n_wf : DotDims.WF S8192x2048 S2048x2048 S8192x2048 [1] [0] [0] [1] [] []

variable [Facts₀]

def dot_S8192x2048_S2048x2048_S8192x2048_1_0_0_1_n_n : DotDims S8192x2048 S2048x2048 S8192x2048 where
  lhsContracting := [1]
  rhsContracting := [0]
  lhsNonContracting := [0]
  rhsNonContracting := [1]
  lhsBatch := []
  rhsBatch := []
  wf := dot_S8192x2048_S2048x2048_S8192x2048_1_0_0_1_n_n_wf

class Facts : Prop extends Facts₀ where

variable [Facts]
-- ==== Proof.KB.Common.lean ====
/-
  Facts about the one pallas_call's schedule and buffers, decided once over its 17 grid points, that the body's
  run and the pipeline's proof data share: which parity branch a point takes, that no window is ever idle,
  that the output block is written back at every point but the first, and the kernel's four scratch
  buffers as whole memrefs.
-/
import proofs.«173379_g77283641524595_feedfinal_129_4_alg».proof.Proof.Gen.Kernel.Launch
import proofs.«173379_g77283641524595_feedfinal_129_4_alg».proof.Proof.Gen.Kernel.Skeleton
import proofs.«173379_g77283641524595_feedfinal_129_4_alg».proof.Proof.Gen.Kernel.Points
import proofs.«173379_g77283641524595_feedfinal_129_4_alg».proof.Proof.Gen.Kernel.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

/-- The zero offsets of a rank-2 rectangle, as the constant function. -/
theorem hz2 : (![0, 0] : Fin 2 → ℕ) = fun _ => 0 := by
  funext a; fin_cases a <;> rfl

/-! ## Which branch a point takes -/

/-- The first branch (softmax into scratch pair 0, product from scratch pair 1) is taken at the even points. -/
theorem hcondE : ∀ t : Fin cfg0.N, k0_cond1 (grid0.coords t) = 1#1 ↔ t.val % 2 = 0 :=
  (by decide +kernel : ∀ t : Fin grid0.N, k0_cond1 (grid0.coords t) = 1#1 ↔ t.val % 2 = 0)

/-- The second branch (the pairs exchanged) is taken at the odd points. -/
theorem hcondO : ∀ t : Fin cfg0.N, k0_cond2 (grid0.coords t) = 1#1 ↔ t.val % 2 = 1 :=
  (by decide +kernel : ∀ t : Fin grid0.N, k0_cond2 (grid0.coords t) = 1#1 ↔ t.val % 2 = 1)

/-! ## No window is idle: one of the two branches stores the output block at every point -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel

/-! ## The output window's schedule: block `max (t - 1) 0`, written back at every point but the first -/

theorem flushOut : ∀ t : Fin cfg0.N, (cfg0.win 2).flush t = true ↔ t.val ≠ 0 :=
  (by decide +kernel : ∀ t : Fin grid0.N, win0_2.flush t = true ↔ t.val ≠ 0)

theorem indexOut : ∀ t : Fin cfg0.N, win0_2.index t (0 : Fin 2) = 0 ∧ win0_2.index t (1 : Fin 2) = t.val - 1 :=
  (by decide +kernel : ∀ t : Fin grid0.N, win0_2.index t (0 : Fin 2) = 0 ∧ win0_2.index t (1 : Fin 2) = t.val - 1)

theorem indexS : ∀ t : Fin cfg0.N, win0_1.index t (0 : Fin 2) = min t.val 15 ∧ win0_1.index t (1 : Fin 2) = 0 :=
  (by decide +kernel : ∀ t : Fin grid0.N, win0_1.index t (0 : Fin 2) = min t.val 15 ∧ win0_1.index t (1 : Fin 2) = 0)

theorem indexU : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

/-! ## The staging memrefs at a point, and the scratch buffers -/

abbrev ms0 (t : Fin cfg0.N) : Memref sig .tc .vmem S2048x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x512 .f32 := win0_2.stage (cfg0.slots t 2)
abbrev hs2 (t : Fin cfg0.N) : (ms2 t).IsWhole := hstage0_2 ((cfg0.slots t 2).cast nbuf0_2)
/-- The numerator scratch of the even points, of the odd points; the reciprocal scratch of each. -/
abbrev scA0 : Memref sig .tc .vmem S512x2048 .bf16 := Memref.whole cc0_scratch0
abbrev scA1 : Memref sig .tc .vmem S512x2048 .bf16 := Memref.whole cc0_scratch1
abbrev scR0 : Memref sig .tc .vmem S1x512 .f32 := Memref.whole cc0_scratch2
abbrev scR1 : Memref sig .tc .vmem S1x512 .f32 := Memref.whole cc0_scratch3

/-- The region's own invariant with the four scratch buffers as memrefs held at some contents. -/
theorem PhiA_eq (c : Dev nD) :
    (Pipeline.ΦA spec0 c : sProp 𝕄)
      = iprop(iprop((∃ d, owns (c : Thread nD τ) scA0 fullShare d) ∗ (∃ d, owns (c : Thread nD τ) scA1 fullShare d) ∗ (∃ d, owns (c : Thread nD τ) scR0 fullShare d) ∗ (∃ d, owns (c : Thread nD τ) scR1 fullShare d)) ∗ (∃ r, prngReg c r)) := by
  unfold Pipeline.ΦA; rw [scopedRest0_eq]; simp only [scA0, scA1, scR0, scR1, owns_whole]; try rfl

/-! ## The body's pure values -/

/-- The softmax numerator of a block of scores, `exp (s - rowmax s)`, in the matrix unit's operand format. -/
abbrev numOf (x1 : Vec F S512x2048 .f32) : Vec F S512x2048 .bf16 := k0_pay3 x1
/-- The reciprocal of the numerator's row sums, laid along lanes. -/
abbrev recOf (x1 : Vec F S512x2048 .f32) : Vec F S1x512 .f32 := k0_pay2 x1
/-- The product stage: `ut` contracted with a numerator over the query axis, each column scaled by a reciprocal. -/
abbrev outOf (x0 : Vec F S2048x2048 .bf16) (xa : Vec F S512x2048 .bf16) (xr : Vec F S1x512 .f32) : Vec F S2048x512 .f32 := k0_pay4 x0 xa xr

/-- The odd branch computes the same three values. -/
theorem pay7_eq (x1 : Vec F S512x2048 .f32) : k0_pay7 x1 = numOf x1 := rfl
theorem pay6_eq (x1 : Vec F S512x2048 .f32) : k0_pay6 x1 = recOf x1 := rfl
theorem pay8_eq (x0 : Vec F S2048x2048 .bf16) (xa : Vec F S512x2048 .bf16) (xr : Vec F S1x512 .f32) : k0_pay8 x0 xa xr = outOf x0 xa xr := rfl

end Cert.Kernel.Hand

end
-- ==== Proof.KB.Data.lean ====
/-
  The pipeline's proof data. The two inputs' staging buffers hold their blocks at every point. Between points
  the invariant holds the four scratch buffers with one pure fact: after point `t` the pair of `t`'s parity
  is the numerator and the reciprocal row sums of the block of scores `t` staged; the other pair is whatever
  it was. Of the output buffer the data says nothing at the first point (there the product stage reads
  scratch nobody has stored) and from the second point on names it: `(ut · numᵀ) * rec` of the block of
  scores the point BEFORE staged. The first point's block is not written back, so no array element depends on it.
-/
import proofs.«173379_g77283641524595_feedfinal_129_4_alg».proof.Proof.KB.Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The `ut` block and the block of scores staged at point `t`, at their literal types. -/
abbrev utBlk (c : Dev nD) (t : Fin cfg0.N) : Vec F S2048x2048 .bf16 := iblk m c 0 t
abbrev sBlk (c : Dev nD) (t : Fin cfg0.N) : Vec F S512x2048 .f32 := iblk m c 1 t

/-- What the scratch pairs hold before point `k`: the pair of `k - 1`'s parity is that point's numerator and reciprocal. -/
def Tracked (c : Dev nD) (k : ℕ) (a0 a1 : Vec F S512x2048 .bf16) (r0 r1 : Vec F S1x512 .f32) : Prop :=
  ∀ t : Fin cfg0.N, t.val + 1 = k →
    (t.val % 2 = 0 → a0 = numOf (sBlk m c t) ∧ r0 = recOf (sBlk m c t)) ∧
    (t.val % 2 = 1 → a1 = numOf (sBlk m c t) ∧ r1 = recOf (sBlk m c t))

theorem tracked_zero (c : Dev nD) (a0 a1 : Vec F S512x2048 .bf16) (r0 r1 : Vec F S1x512 .f32) : Tracked m c 0 a0 a1 r0 r1 :=
  fun t h => absurd h (Nat.succ_ne_zero _)

theorem tracked_succ_even (c : Dev nD) (t : Fin cfg0.N) (ht : t.val % 2 = 0) (a1 : Vec F S512x2048 .bf16) (r1 : Vec F S1x512 .f32) :
    Tracked m c (t.val + 1) (numOf (sBlk m c t)) a1 (recOf (sBlk m c t)) r1 := fun t' h => by
  obtain rfl : t' = t := Fin.ext (by omega)
  exact ⟨fun _ => ⟨rfl, rfl⟩, fun h1 => by omega⟩

theorem tracked_succ_odd (c : Dev nD) (t : Fin cfg0.N) (ht : t.val % 2 = 1) (a0 : Vec F S512x2048 .bf16) (r0 : Vec F S1x512 .f32) :
    Tracked m c (t.val + 1) a0 (numOf (sBlk m c t)) r0 (recOf (sBlk m c t)) := fun t' h => by
  obtain rfl : t' = t := Fin.ext (by omega)
  exact ⟨fun h0 => by omega, fun _ => ⟨rfl, rfl⟩⟩

/-- The invariant before point `k`: the scratch buffers at contents of which `Tracked` holds, and the generator register. -/
def PhiT (c : Dev nD) (k : ℕ) : sProp 𝕄 :=
  iprop((∃ a0 a1 r0 r1, ⌜Tracked m c k a0 a1 r0 r1⌝ ∗ owns (c : Thread nD τ) scA0 fullShare a0 ∗ owns (c : Thread nD τ) scA1 fullShare a1
      ∗ owns (c : Thread nD τ) scR0 fullShare r0 ∗ owns (c : Thread nD τ) scR1 fullShare r1) ∗ (∃ r, prngReg c r))

/-- What the body leaves in the output buffer at point `t`, whatever it found: from the second point on, the
    product of `ut` with the numerator of the block of scores the point before staged, scaled by its reciprocal. -/
def Rout (c : Dev nD) (t : Fin cfg0.N) (_Y X : Vec F S2048x512 .f32) : Prop :=
  ∀ t' : Fin cfg0.N, t'.val + 1 = t.val → X = outOf (utBlk m c t) (numOf (sBlk m c t')) (recOf (sBlk m c t'))

theorem rout_even (c : Dev nD) (t : Fin cfg0.N) (ht : t.val % 2 = 0) {a0 a1 : Vec F S512x2048 .bf16} {r0 r1 : Vec F S1x512 .f32}
    (hT : Tracked m c t.val a0 a1 r0 r1) (Y : Vec F S2048x512 .f32) : Rout m c t Y (outOf (utBlk m c t) a1 r1) := fun t' h => by
  obtain ⟨e1, e2⟩ := (hT t' h).2 (by omega)
  rw [e1, e2]

theorem rout_odd (c : Dev nD) (t : Fin cfg0.N) (ht : t.val % 2 = 1) {a0 a1 : Vec F S512x2048 .bf16} {r0 r1 : Vec F S1x512 .f32}
    (hT : Tracked m c t.val a0 a1 r0 r1) (Y : Vec F S2048x512 .f32) : Rout m c t Y (outOf (utBlk m c t) a0 r0) := fun t' h => by
  obtain ⟨e1, e2⟩ := (hT t' h).1 (by omega)
  rw [e1, e2]

/-- The exact data of the two inputs (each buffer at its block after every point); the output named nowhere. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ t := PhiT m c t.val
  q _ := fullShare
  owed _ := 0

/-- The output window's relation replaces the exact data's; the inputs keep theirs. -/
def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => some (Rout m c)

/-- The proof data: exact for the inputs, relational for the output. -/
def rdat (c : Dev nD) : RDat τ (Elt F) Unit ℕ (UR sig nD τ) ℕ cfg0 c := (dat m c).toR.override (ovr m c)

theorem A_eq (c : Dev nD) (w : Fin cfg0.W) : (rdat m c).A w = V m c (Pipeline.arrRef spec0 w) := by
  show (dat m c).A w = _; dsimp only [dat]

theorem datA_eq (c : Dev nD) (w : Fin cfg0.W) : (dat m c).A w = V m c (Pipeline.arrRef spec0 w) := by
  dsimp only [dat]

theorem after0 (c : Dev nD) (t : Fin cfg0.N) : (dat m c).after 0 t = iblk m c 0 t := by dsimp only [dat]
theorem after1 (c : Dev nD) (t : Fin cfg0.N) : (dat m c).after 1 t = iblk m c 1 t := by dsimp only [dat]

theorem before0 (c : Dev nD) (t : Fin cfg0.N) (d) : (dat m c).before 0 t d = iblk m c 0 t :=
  before0_0_of m (dat m c) (datA_eq m c 0) (after0 m c) t d
theorem before1 (c : Dev nD) (t : Fin cfg0.N) (d) : (dat m c).before 1 t d = iblk m c 1 t :=
  before0_1_of m (dat m c) (datA_eq m c 1) (after1 m c) t d

/-- What the body may find in an input's buffer is its block. -/
theorem finds0 (c : Dev nD) (t : Fin cfg0.N) (Y) (h : (rdat m c).Finds 0 t Y) : Y = iblk m c 0 t := by
  obtain ⟨d, rfl⟩ := (dat m c).toR_finds 0 t Y (((dat m c).toR.override_finds (ovr := ovr m c) (w := 0) rfl t Y).mp h)
  exact before0 m c t d
theorem finds1 (c : Dev nD) (t : Fin cfg0.N) (Y) (h : (rdat m c).Finds 1 t Y) : Y = iblk m c 1 t := by
  obtain ⟨d, rfl⟩ := (dat m c).toR_finds 1 t Y (((dat m c).toR.override_finds (ovr := ovr m c) (w := 1) rfl t Y).mp h)
  exact before1 m c t d

/-- Leaving an input's buffer at its block is what the data asks of it. -/
theorem leaves0 (c : Dev nD) (t : Fin cfg0.N) (Y) : (rdat m c).after 0 t Y (iblk m c 0 t) := by
  show ((dat m c).toR.override (ovr m c)).after 0 t Y _
  rw [(dat m c).toR.override_after_of_eq_none (ovr := ovr m c) (w := 0) rfl]
  show (dat m c).Leaves 0 t _
  rw [Dat.Leaves.live_iff _ (.inl (liveAt0 t))]
  exact (after0 m c t).symm
theorem leaves1 (c : Dev nD) (t : Fin cfg0.N) (Y) : (rdat m c).after 1 t Y (iblk m c 1 t) := by
  show ((dat m c).toR.override (ovr m c)).after 1 t Y _
  rw [(dat m c).toR.override_after_of_eq_none (ovr := ovr m c) (w := 1) rfl]
  show (dat m c).Leaves 1 t _
  rw [Dat.Leaves.live_iff _ (.inl (liveAt1 t))]
  exact (after1 m c t).symm

/-- The output window's relation is `Rout`. -/
theorem afterOut (c : Dev nD) : (rdat m c).after 2 = Rout m c :=
  (dat m c).toR.override_after_of_eq_some (ovr := ovr m c) (w := 2) rfl

/-- The invariant at a point's start and end. -/
theorem Phi_castSucc (c : Dev nD) (t : Fin cfg0.N) : (rdat m c).Φ t.castSucc = PhiT m c t.val := by
  show (dat m c).Φ t.castSucc = _; dsimp only [dat]; simp only [Fin.coe_castSucc]
theorem Phi_succ (c : Dev nD) (t : Fin cfg0.N) : (rdat m c).Φ t.succ = PhiT m c (t.val + 1) := by
  show (dat m c).Φ t.succ = _; dsimp only [dat]; simp only [Fin.val_succ]

/-- The region's invariant yields the tracking one before the first point (nothing tracked yet), -/
theorem hin (c : Dev nD) : Pipeline.ΦA spec0 c ⊢ (rdat m c).Φ 0 := by
  show _ ⊢ PhiT m c 0
  rw [PhiA_eq]; unfold PhiT
  iintro ⟨⟨⟨%a0, HA0⟩, ⟨%a1, HA1⟩, ⟨%r0, HR0⟩, ⟨%r1, HR1⟩⟩, Hg⟩
  isplitl [HA0 HA1 HR0 HR1]
  · iexists a0, a1, r0, r1
    isplitr; · ipureintro; exact tracked_zero m c a0 a1 r0 r1
    isplitl [HA0]; · iexact HA0
    isplitl [HA1]; · iexact HA1
    isplitl [HR0]; · iexact HR0
    iexact HR1
  iexact Hg

/-- and the tracking invariant gives it back after the last point (the scratch contents forgotten). -/
theorem hout (c : Dev nD) : (rdat m c).Φ (Fin.last cfg0.N) ⊢ Pipeline.ΦA spec0 c := by
  show PhiT m c _ ⊢ _
  rw [PhiA_eq]; unfold PhiT
  iintro ⟨⟨%a0, %a1, %r0, %r1, -, HA0, HA1, HR0, HR1⟩, Hg⟩
  isplitl [HA0 HA1 HR0 HR1]
  · isplitl [HA0]; · iexists _; iexact HA0
    isplitl [HA1]; · iexists _; iexact HA1
    isplitl [HR0]; · iexists _; iexact HR0
    iexists _; iexact HR1
  iexact Hg

end Cert.Kernel.Hand

end
-- ==== Proof.KB.RunEven.lean ====
/-
  The kernel body at an even grid point, run once symbolically. Handed the `ut` block, the block of scores,
  and the OTHER parity's numerator and reciprocal scratch at contents `xa`, `xr` (its own pair and the output
  buffer at anything), it leaves the inputs and the other pair as they were, its own pair at the numerator
  `exp (s - rowmax s)` and the reciprocal row sums of THIS block of scores, and the output buffer at
  `(ut · xaᵀ) * xr`: the product stage reads what the point before stored, never what this point stores.
-/
import proofs.«173379_g77283641524595_feedfinal_129_4_alg».proof.Proof.KB.Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem runEven (c : Dev nD) (i : grid0.Coords) (arg1 : Memref sig .tc .vmem S2048x2048 .bf16) (harg1 : arg1.IsWhole) (arg2 : Memref sig .tc .vmem S512x2048 .f32) (harg2 : arg2.IsWhole) (arg3 : Memref sig .tc .vmem S2048x512 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S1x512 .f32) (harg6 : arg6.IsWhole) (arg7 : Memref sig .tc .vmem S1x512 .f32) (harg7 : arg7.IsWhole) (hcE : k0_cond1 i = 1#1) (hcO : ¬ k0_cond2 i = 1#1)
    (x0 : Vec F S2048x2048 .bf16) (x1 : Vec F S512x2048 .f32) (xa : Vec F S512x2048 .bf16) (xr : Vec F S1x512 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xa ∗ (∃ d, owns (c : Thread nD τ) arg6 fullShare d) ∗ owns (c : Thread nD τ) arg7 fullShare xr
            ∗ (iprop(owns (c : Thread nD τ) arg1 fullShare x0 ∗ owns (c : Thread nD τ) arg2 fullShare x1 ∗ owns (c : Thread nD τ) arg3 fullShare (outOf x0 xa xr) ∗ owns (c : Thread nD τ) arg4 fullShare (numOf x1) ∗ owns (c : Thread nD τ) arg5 fullShare xa ∗ owns (c : Thread nD τ) arg6 fullShare (recOf x1) ∗ owns (c : Thread nD τ) arg7 fullShare xr) -∗ K ⟨⟩))
          ⊢ wp frame (wpE (defs₀ (F := F)) Variants.none c none) E (cc0_context2query_fused i arg1 harg1 arg2 harg2 arg3 harg3 arg4 harg4 arg5 harg5 arg6 harg6 arg7 harg7) K := by
    intro E K
    simp only [cc0_context2query_fused_eq_skeleton]; unfold cc0_context2query_fused_skel
    unfold owns
    iintro ⟨⟨%f0, %hf0, H0⟩, ⟨%f1, %hf1, H1⟩, ⟨%d2, %f2, -, H2⟩, ⟨%darg4, %farg4, -, HA0⟩, ⟨%farg5, %hfarg5, HA1⟩, ⟨%darg6, %farg6, -, HR0⟩, ⟨%farg7, %hfarg7, HR1⟩, Hk⟩
    obtain rfl := harg1.eq_unread hf0; obtain rfl := harg2.eq_unread hf1
    obtain rfl := harg5.eq_unread hfarg5; obtain rfl := harg7.eq_unread hfarg7
    sl_exec (disch := first | exact hcE | exact hcO)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      rw [View.read_writes_eq_canon _ _ _ (fun y => ⟨_, List.mem_singleton_self _, View.mem_set_unit_zero hz2 inb_S2048x512_S2048x512_0_0 y⟩), View.canon_unit_zero hz2]
      simp only [View.readAt_eq_ld, harg1.read_unread, harg2.read_unread, harg5.read_unread, harg7.read_unread, View.ld_unit_zero (S := S2048x2048) hz2, View.ld_unit_zero (S := S512x2048) hz2, View.ld_unit_zero (S := S1x512) hz2]
    isplitl [HA0]
    · iexists _; isplitr; swap; · iexact HA0
      ipureintro
      rw [View.read_writes_eq_canon _ _ _ (fun y => ⟨_, List.mem_singleton_self _, View.mem_set_unit_zero hz2 inb_S512x2048_S512x2048_0_0 y⟩), View.canon_unit_zero hz2]
      simp only [View.readAt_eq_ld, harg1.read_unread, harg2.read_unread, harg5.read_unread, harg7.read_unread, View.ld_unit_zero (S := S2048x2048) hz2, View.ld_unit_zero (S := S512x2048) hz2, View.ld_unit_zero (S := S1x512) hz2]
    isplitl [HA1]
    · iexists _; isplitr; · ipureintro; exact harg5.read_unread _
      iexact HA1
    isplitl [HR0]
    · iexists _; isplitr; swap; · iexact HR0
      ipureintro
      rw [View.read_writes_eq_canon _ _ _ (fun y => ⟨_, List.mem_singleton_self _, View.mem_set_unit_zero hz2 inb_S1x512_S1x512_0_0 y⟩), View.canon_unit_zero hz2]
      simp only [View.readAt_eq_ld, harg1.read_unread, harg2.read_unread, harg5.read_unread, harg7.read_unread, View.ld_unit_zero (S := S2048x2048) hz2, View.ld_unit_zero (S := S512x2048) hz2, View.ld_unit_zero (S := S1x512) hz2]
    iexists _; isplitr; · ipureintro; exact harg7.read_unread _
    iexact HR1

end Cert.Kernel.Hand

end
-- ==== Proof.KB.RunOdd.lean ====
/-
  The kernel body at an odd grid point, run once symbolically. Handed the `ut` block, the block of scores,
  and the OTHER parity's numerator and reciprocal scratch at contents `xa`, `xr` (its own pair and the output
  buffer at anything), it leaves the inputs and the other pair as they were, its own pair at the numerator
  `exp (s - rowmax s)` and the reciprocal row sums of THIS block of scores, and the output buffer at
  `(ut · xaᵀ) * xr`: the product stage reads what the point before stored, never what this point stores.
-/
import proofs.«173379_g77283641524595_feedfinal_129_4_alg».proof.Proof.KB.Common

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
theorem runOdd (c : Dev nD) (i : grid0.Coords) (arg1 : Memref sig .tc .vmem S2048x2048 .bf16) (harg1 : arg1.IsWhole) (arg2 : Memref sig .tc .vmem S512x2048 .f32) (harg2 : arg2.IsWhole) (arg3 : Memref sig .tc .vmem S2048x512 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S1x512 .f32) (harg6 : arg6.IsWhole) (arg7 : Memref sig .tc .vmem S1x512 .f32) (harg7 : arg7.IsWhole) (hcE : ¬ k0_cond1 i = 1#1) (hcO : k0_cond2 i = 1#1)
    (x0 : Vec F S2048x2048 .bf16) (x1 : Vec F S512x2048 .f32) (xa : Vec F S512x2048 .bf16) (xr : Vec F S1x512 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xa ∗ (∃ d, owns (c : Thread nD τ) arg5 fullShare d) ∗ owns (c : Thread nD τ) arg6 fullShare xr ∗ (∃ d, owns (c : Thread nD τ) arg7 fullShare d)
            ∗ (iprop(owns (c : Thread nD τ) arg1 fullShare x0 ∗ owns (c : Thread nD τ) arg2 fullShare x1 ∗ owns (c : Thread nD τ) arg3 fullShare (outOf x0 xa xr) ∗ owns (c : Thread nD τ) arg4 fullShare xa ∗ owns (c : Thread nD τ) arg5 fullShare (numOf x1) ∗ owns (c : Thread nD τ) arg6 fullShare xr ∗ owns (c : Thread nD τ) arg7 fullShare (recOf x1)) -∗ K ⟨⟩))
          ⊢ wp frame (wpE (defs₀ (F := F)) Variants.none c none) E (cc0_context2query_fused i arg1 harg1 arg2 harg2 arg3 harg3 arg4 harg4 arg5 harg5 arg6 harg6 arg7 harg7) K := by
    intro E K
    simp only [cc0_context2query_fused_eq_skeleton]; unfold cc0_context2query_fused_skel
    unfold owns
    iintro ⟨⟨%f0, %hf0, H0⟩, ⟨%f1, %hf1, H1⟩, ⟨%d2, %f2, -, H2⟩, ⟨%farg4, %hfarg4, HA0⟩, ⟨%darg5, %farg5, -, HA1⟩, ⟨%farg6, %hfarg6, HR0⟩, ⟨%darg7, %farg7, -, HR1⟩, Hk⟩
    obtain rfl := harg1.eq_unread hf0; obtain rfl := harg2.eq_unread hf1
    obtain rfl := harg4.eq_unread hfarg4; obtain rfl := harg6.eq_unread hfarg6
    sl_exec (disch := first | exact hcE | exact hcO)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      rw [View.read_writes_eq_canon _ _ _ (fun y => ⟨_, List.mem_singleton_self _, View.mem_set_unit_zero hz2 inb_S2048x512_S2048x512_0_0 y⟩), View.canon_unit_zero hz2]
      simp only [View.readAt_eq_ld, harg1.read_unread, harg2.read_unread, harg4.read_unread, harg6.read_unread, View.ld_unit_zero (S := S2048x2048) hz2, View.ld_unit_zero (S := S512x2048) hz2, View.ld_unit_zero (S := S1x512) hz2, pay6_eq, pay7_eq, pay8_eq]
    isplitl [HA0]
    · iexists _; isplitr; · ipureintro; exact harg4.read_unread _
      iexact HA0
    isplitl [HA1]
    · iexists _; isplitr; swap; · iexact HA1
      ipureintro
      rw [View.read_writes_eq_canon _ _ _ (fun y => ⟨_, List.mem_singleton_self _, View.mem_set_unit_zero hz2 inb_S512x2048_S512x2048_0_0 y⟩), View.canon_unit_zero hz2]
      simp only [View.readAt_eq_ld, harg1.read_unread, harg2.read_unread, harg4.read_unread, harg6.read_unread, View.ld_unit_zero (S := S2048x2048) hz2, View.ld_unit_zero (S := S512x2048) hz2, View.ld_unit_zero (S := S1x512) hz2, pay6_eq, pay7_eq, pay8_eq]
    isplitl [HR0]
    · iexists _; isplitr; · ipureintro; exact harg6.read_unread _
      iexact HR0
    iexists _; isplitr; swap; · iexact HR1
    ipureintro
    rw [View.read_writes_eq_canon _ _ _ (fun y => ⟨_, List.mem_singleton_self _, View.mem_set_unit_zero hz2 inb_S1x512_S1x512_0_0 y⟩), View.canon_unit_zero hz2]
    simp only [View.readAt_eq_ld, harg1.read_unread, harg2.read_unread, harg4.read_unread, harg6.read_unread, View.ld_unit_zero (S := S2048x2048) hz2, View.ld_unit_zero (S := S512x2048) hz2, View.ld_unit_zero (S := S1x512) hz2, pay6_eq, pay7_eq, pay8_eq]

end Cert.Kernel.Hand

end
-- ==== Proof.KB.Oblig.lean ====
/-
  The body obligation of the relational proof data, at a generic point: the point's parity selects the branch;
  the invariant hands the body the other parity's scratch pair at its tracked contents and its own pair at
  anything; the run returns its own pair at this point's numerator and reciprocal, which is the invariant at
  the next point, and the output buffer at the product over the OTHER pair, which from the second point on is
  what the output's relation names.
-/
import proofs.«173379_g77283641524595_feedfinal_129_4_alg».proof.Proof.KB.Data
import proofs.«173379_g77283641524595_feedfinal_129_4_alg».proof.Proof.KB.RunEven
import proofs.«173379_g77283641524595_feedfinal_129_4_alg».proof.Proof.KB.RunOdd

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- What the body is called with at point `t`, the windows' current buffers at contents `Y`, -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (ms0 t) fullShare (Y 0)
    ∗ owns (c : Thread nD τ) (ms1 t) fullShare (Y 1)
    ∗ owns (c : Thread nD τ) (ms2 t) fullShare (Y 2))

/-- and what it returns. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (ms0 t) fullShare X)
    ∗ (∃ X, ⌜(rdat m c).after 1 t (Y 1) X⌝ ∗ owns (c : Thread nD τ) (ms1 t) fullShare X)
    ∗ (∃ X, ⌜(rdat m c).after 2 t (Y 2) X⌝ ∗ owns (c : Thread nD τ) (ms2 t) fullShare X))

set_option maxHeartbeats 1600000 in
theorem sound_body (c : Dev nD) (t : Fin cfg0.N) (Y : (w : Fin cfg0.W) → (cfg0.win w).block.Idx → Elt F (cfg0.win w).elt)
    (h0 : Y 0 = iblk m c 0 t) (h1 : Y 1 = iblk m c 1 t) :
    bodyPre m c t Y ⊢ wp frame (wpE (defs₀ (F := F)) Variants.none c none) Set.univ (bodyAt0 t) (fun _ => bodyPost m c t Y) := by
  unfold bodyPre bodyPost bodyAt0
  rw [h0, h1]
  rw [show (rdat m c).owesAt () t.succ = (rdat m c).owesAt () t.castSucc from rfl]
  rw [Phi_castSucc, Phi_succ]
  unfold PhiT
  have hN : t.val < 17 := lt_of_lt_of_eq t.isLt (show cfg0.N = 17 from N_0)
  by_cases hpar : t.val % 2 = 0
  ·
    iintro ⟨⟨⟨%a0, %a1, %r0, %r1, %hT, HA0, HA1, HR0, HR1⟩, Hg⟩, Ho, H0, H1, H2⟩
    iapply ((runEven c (grid0.coords t) _ _ _ _ _ _ _ _ _ _ _ _ _ _ ((hcondE t).mpr hpar) (fun h => by have := (hcondO t).mp h; omega) (utBlk m c t) (sBlk m c t) a1 r1) Set.univ _)
    isplitl [H0]; · iexact H0
    isplitl [H1]; · iexact H1
    isplitl [H2]; · iexists _; iexact H2
    isplitl [HA0]; · iexists _; iexact HA0
    isplitl [HA1]; · iexact HA1
    isplitl [HR0]; · iexists _; iexact HR0
    isplitl [HR1]; · iexact HR1
    iintro ⟨H0, H1, H2, HA0, HA1, HR0, HR1⟩
    isplitl [HA0 HA1 HR0 HR1 Hg]
    · isplitl [HA0 HA1 HR0 HR1]
      · iexists (numOf (sBlk m c t)), a1, (recOf (sBlk m c t)), r1
        isplitr; · ipureintro; exact tracked_succ_even m c t hpar a1 r1
        isplitl [HA0]; · iexact HA0
        isplitl [HA1]; · iexact HA1
        isplitl [HR0]; · iexact HR0
        iexact HR1
      iexact Hg
    isplitl [Ho]; · iexact Ho
    isplitl [H0]
    · iexists _; isplitr; swap; · iexact H0
      ipureintro; exact leaves0 m c t _
    isplitl [H1]
    · iexists _; isplitr; swap; · iexact H1
      ipureintro; exact leaves1 m c t _
    iexists _; isplitr; swap; · iexact H2
    ipureintro; rw [afterOut]; exact rout_even m c t hpar hT _
  · have hpar : t.val % 2 = 1 := by omega
    iintro ⟨⟨⟨%a0, %a1, %r0, %r1, %hT, HA0, HA1, HR0, HR1⟩, Hg⟩, Ho, H0, H1, H2⟩
    iapply ((runOdd c (grid0.coords t) _ _ _ _ _ _ _ _ _ _ _ _ _ _ (fun h => by have := (hcondE t).mp h; omega) ((hcondO t).mpr hpar) (utBlk m c t) (sBlk m c t) a0 r0) Set.univ _)
    isplitl [H0]; · iexact H0
    isplitl [H1]; · iexact H1
    isplitl [H2]; · iexists _; iexact H2
    isplitl [HA0]; · iexact HA0
    isplitl [HA1]; · iexists _; iexact HA1
    isplitl [HR0]; · iexact HR0
    isplitl [HR1]; · iexists _; iexact HR1
    iintro ⟨H0, H1, H2, HA0, HA1, HR0, HR1⟩
    isplitl [HA0 HA1 HR0 HR1 Hg]
    · isplitl [HA0 HA1 HR0 HR1]
      · iexists a0, (numOf (sBlk m c t)), r0, (recOf (sBlk m c t))
        isplitr; · ipureintro; exact tracked_succ_odd m c t hpar a0 r0
        isplitl [HA0]; · iexact HA0
        isplitl [HA1]; · iexact HA1
        isplitl [HR0]; · iexact HR0
        iexact HR1
      iexact Hg
    isplitl [Ho]; · iexact Ho
    isplitl [H0]
    · iexists _; isplitr; swap; · iexact H0
      ipureintro; exact leaves0 m c t _
    isplitl [H1]
    · iexists _; isplitr; swap; · iexact H1
      ipureintro; exact leaves1 m c t _
    iexists _; isplitr; swap; · iexact H2
    ipureintro; rw [afterOut]; exact rout_odd m c t hpar hT _

/-- The library's body obligation of the relational data, at every point. -/
theorem body_obligation (c : Dev nD) : (rdat m c).BodyObligation (defs₀ (F := F)) Variants.none () Set.univ := fun t Y hY => by
  rw [bigSep_W0, bigSep_W0]
  exact sound_body m c t Y (finds0 m c t _ (hY 0)) (finds1 m c t _ (hY 1))

end Cert.Kernel.Hand

end
-- ==== Proof.KB.Launch.lean ====
/-
  The launch: @main's three host operations, then the region run from the relational proof data with the
  tracking invariant; and the frame claim read off its post (the scores' array is a staged input, so it ends
  as it was entered; `u` is staged by no window and no host operation writes it).
-/
import proofs.«173379_g77283641524595_feedfinal_129_4_alg».proof.Proof.KB.Oblig

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, each window's array at SOME contents the relational data
    allows after every write-back, every other unscoped buffer as the region found it. -/
theorem run_main : θ_run defs (onTc (τ := τ) (main (F := F))) (s₀ m ρ) (Pipeline.RDat.FramePost (cfgs 0) (rdat m) (V m)) :=
  Pipeline.RDat.θ_run_frame_track cfgs (0 : Fin 1) launch0 defs₀ Variants.none (rdat m) m ρ main
    (hbody := body_obligation m) (hshare := fun c => ((rdat m c)).share_full fun _ => rfl)
    (howed := fun _ _ => rfl) (V := V m) (hmain := hmain m Variants.none) (hA := A_eq m) (hin := hin m) (hout := hout m)

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((A_eq m c 1).trans (V_main_arg1 m c))⟩) (run_main m ρ)

end Cert.Kernel.Hand

end
-- ==== Proof.KI.Common.lean ====
/-
  Facts about the one pallas_call's schedule and buffers, decided once over its 17 grid points, that the body's
  run and the pipeline's proof data share: which parity branch a point takes, that no window is ever idle,
  that the output block is written back at every point but the first, and the kernel's four scratch
  buffers as whole memrefs.
-/
import proofs.«173379_g77283641524595_feedfinal_129_4_alg».proof.Proof.Gen.KernelIdeal.Launch
import proofs.«173379_g77283641524595_feedfinal_129_4_alg».proof.Proof.Gen.KernelIdeal.Skeleton
import proofs.«173379_g77283641524595_feedfinal_129_4_alg».proof.Proof.Gen.KernelIdeal.Points
import proofs.«173379_g77283641524595_feedfinal_129_4_alg».proof.Proof.Gen.KernelIdeal.Frame
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-2 rectangle, as the constant function. -/
theorem hz2 : (![0, 0] : Fin 2 → ℕ) = fun _ => 0 := by
  funext a; fin_cases a <;> rfl

/-! ## Which branch a point takes -/

/-- The first branch (softmax into scratch pair 0, product from scratch pair 1) is taken at the even points. -/
theorem hcondE : ∀ t : Fin cfg0.N, k0_cond1 (grid0.coords t) = 1#1 ↔ t.val % 2 = 0 :=
  (by decide +kernel : ∀ t : Fin grid0.N, k0_cond1 (grid0.coords t) = 1#1 ↔ t.val % 2 = 0)

/-- The second branch (the pairs exchanged) is taken at the odd points. -/
theorem hcondO : ∀ t : Fin cfg0.N, k0_cond2 (grid0.coords t) = 1#1 ↔ t.val % 2 = 1 :=
  (by decide +kernel : ∀ t : Fin grid0.N, k0_cond2 (grid0.coords t) = 1#1 ↔ t.val % 2 = 1)

/-! ## No window is idle: one of the two branches stores the output block at every point -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel

/-! ## The output window's schedule: block `max (t - 1) 0`, written back at every point but the first -/

theorem flushOut : ∀ t : Fin cfg0.N, (cfg0.win 2).flush t = true ↔ t.val ≠ 0 :=
  (by decide +kernel : ∀ t : Fin grid0.N, win0_2.flush t = true ↔ t.val ≠ 0)

theorem indexOut : ∀ t : Fin cfg0.N, win0_2.index t (0 : Fin 2) = 0 ∧ win0_2.index t (1 : Fin 2) = t.val - 1 :=
  (by decide +kernel : ∀ t : Fin grid0.N, win0_2.index t (0 : Fin 2) = 0 ∧ win0_2.index t (1 : Fin 2) = t.val - 1)

theorem indexS : ∀ t : Fin cfg0.N, win0_1.index t (0 : Fin 2) = min t.val 15 ∧ win0_1.index t (1 : Fin 2) = 0 :=
  (by decide +kernel : ∀ t : Fin grid0.N, win0_1.index t (0 : Fin 2) = min t.val 15 ∧ win0_1.index t (1 : Fin 2) = 0)

theorem indexU : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

/-! ## The staging memrefs at a point, and the scratch buffers -/

abbrev ms0 (t : Fin cfg0.N) : Memref sig .tc .vmem S2048x2048 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x2048 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S2048x512 .f32 := win0_2.stage (cfg0.slots t 2)
abbrev hs2 (t : Fin cfg0.N) : (ms2 t).IsWhole := hstage0_2 ((cfg0.slots t 2).cast nbuf0_2)
/-- The numerator scratch of the even points, of the odd points; the reciprocal scratch of each. -/
abbrev scA0 : Memref sig .tc .vmem S512x2048 .bf16 := Memref.whole cc0_scratch0
abbrev scA1 : Memref sig .tc .vmem S512x2048 .bf16 := Memref.whole cc0_scratch1
abbrev scR0 : Memref sig .tc .vmem S1x512 .f32 := Memref.whole cc0_scratch2
abbrev scR1 : Memref sig .tc .vmem S1x512 .f32 := Memref.whole cc0_scratch3

/-- The region's own invariant with the four scratch buffers as memrefs held at some contents. -/
theorem PhiA_eq (c : Dev nD) :
    (Pipeline.ΦA spec0 c : sProp 𝕄)
      = iprop(iprop((∃ d, owns (c : Thread nD τ) scA0 fullShare d) ∗ (∃ d, owns (c : Thread nD τ) scA1 fullShare d) ∗ (∃ d, owns (c : Thread nD τ) scR0 fullShare d) ∗ (∃ d, owns (c : Thread nD τ) scR1 fullShare d)) ∗ (∃ r, prngReg c r)) := by
  unfold Pipeline.ΦA; rw [scopedRest0_eq]; simp only [scA0, scA1, scR0, scR1, owns_whole]; try rfl

/-! ## The body's pure values -/

/-- The softmax numerator of a block of scores, `exp (s - rowmax s)`, in the matrix unit's operand format. -/
abbrev numOf (x1 : Vec F S512x2048 .f32) : Vec F S512x2048 .bf16 := k0_pay3 x1
/-- The reciprocal of the numerator's row sums, laid along lanes. -/
abbrev recOf (x1 : Vec F S512x2048 .f32) : Vec F S1x512 .f32 := k0_pay2 x1
/-- The product stage: `ut` contracted with a numerator over the query axis, each column scaled by a reciprocal. -/
abbrev outOf (x0 : Vec F S2048x2048 .bf16) (xa : Vec F S512x2048 .bf16) (xr : Vec F S1x512 .f32) : Vec F S2048x512 .f32 := k0_pay4 x0 xa xr

/-- The odd branch computes the same three values. -/
theorem pay7_eq (x1 : Vec F S512x2048 .f32) : k0_pay7 x1 = numOf x1 := rfl
theorem pay6_eq (x1 : Vec F S512x2048 .f32) : k0_pay6 x1 = recOf x1 := rfl
theorem pay8_eq (x0 : Vec F S2048x2048 .bf16) (xa : Vec F S512x2048 .bf16) (xr : Vec F S1x512 .f32) : k0_pay8 x0 xa xr = outOf x0 xa xr := rfl

end Cert.KernelIdeal.Hand

end
-- ==== Proof.KI.Data.lean ====
/-
  The pipeline's proof data. The two inputs' staging buffers hold their blocks at every point. Between points
  the invariant holds the four scratch buffers with one pure fact: after point `t` the pair of `t`'s parity
  is the numerator and the reciprocal row sums of the block of scores `t` staged; the other pair is whatever
  it was. Of the output buffer the data says nothing at the first point (there the product stage reads
  scratch nobody has stored) and from the second point on names it: `(ut · numᵀ) * rec` of the block of
  scores the point BEFORE staged. The first point's block is not written back, so no array element depends on it.
-/
import proofs.«173379_g77283641524595_feedfinal_129_4_alg».proof.Proof.KI.Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The `ut` block and the block of scores staged at point `t`, at their literal types. -/
abbrev utBlk (c : Dev nD) (t : Fin cfg0.N) : Vec F S2048x2048 .bf16 := iblk m c 0 t
abbrev sBlk (c : Dev nD) (t : Fin cfg0.N) : Vec F S512x2048 .f32 := iblk m c 1 t

/-- What the scratch pairs hold before point `k`: the pair of `k - 1`'s parity is that point's numerator and reciprocal. -/
def Tracked (c : Dev nD) (k : ℕ) (a0 a1 : Vec F S512x2048 .bf16) (r0 r1 : Vec F S1x512 .f32) : Prop :=
  ∀ t : Fin cfg0.N, t.val + 1 = k →
    (t.val % 2 = 0 → a0 = numOf (sBlk m c t) ∧ r0 = recOf (sBlk m c t)) ∧
    (t.val % 2 = 1 → a1 = numOf (sBlk m c t) ∧ r1 = recOf (sBlk m c t))

theorem tracked_zero (c : Dev nD) (a0 a1 : Vec F S512x2048 .bf16) (r0 r1 : Vec F S1x512 .f32) : Tracked m c 0 a0 a1 r0 r1 :=
  fun t h => absurd h (Nat.succ_ne_zero _)

theorem tracked_succ_even (c : Dev nD) (t : Fin cfg0.N) (ht : t.val % 2 = 0) (a1 : Vec F S512x2048 .bf16) (r1 : Vec F S1x512 .f32) :
    Tracked m c (t.val + 1) (numOf (sBlk m c t)) a1 (recOf (sBlk m c t)) r1 := fun t' h => by
  obtain rfl : t' = t := Fin.ext (by omega)
  exact ⟨fun _ => ⟨rfl, rfl⟩, fun h1 => by omega⟩

theorem tracked_succ_odd (c : Dev nD) (t : Fin cfg0.N) (ht : t.val % 2 = 1) (a0 : Vec F S512x2048 .bf16) (r0 : Vec F S1x512 .f32) :
    Tracked m c (t.val + 1) a0 (numOf (sBlk m c t)) r0 (recOf (sBlk m c t)) := fun t' h => by
  obtain rfl : t' = t := Fin.ext (by omega)
  exact ⟨fun h0 => by omega, fun _ => ⟨rfl, rfl⟩⟩

/-- The invariant before point `k`: the scratch buffers at contents of which `Tracked` holds, and the generator register. -/
def PhiT (c : Dev nD) (k : ℕ) : sProp 𝕄 :=
  iprop((∃ a0 a1 r0 r1, ⌜Tracked m c k a0 a1 r0 r1⌝ ∗ owns (c : Thread nD τ) scA0 fullShare a0 ∗ owns (c : Thread nD τ) scA1 fullShare a1
      ∗ owns (c : Thread nD τ) scR0 fullShare r0 ∗ owns (c : Thread nD τ) scR1 fullShare r1) ∗ (∃ r, prngReg c r))

/-- What the body leaves in the output buffer at point `t`, whatever it found: from the second point on, the
    product of `ut` with the numerator of the block of scores the point before staged, scaled by its reciprocal. -/
def Rout (c : Dev nD) (t : Fin cfg0.N) (_Y X : Vec F S2048x512 .f32) : Prop :=
  ∀ t' : Fin cfg0.N, t'.val + 1 = t.val → X = outOf (utBlk m c t) (numOf (sBlk m c t')) (recOf (sBlk m c t'))

theorem rout_even (c : Dev nD) (t : Fin cfg0.N) (ht : t.val % 2 = 0) {a0 a1 : Vec F S512x2048 .bf16} {r0 r1 : Vec F S1x512 .f32}
    (hT : Tracked m c t.val a0 a1 r0 r1) (Y : Vec F S2048x512 .f32) : Rout m c t Y (outOf (utBlk m c t) a1 r1) := fun t' h => by
  obtain ⟨e1, e2⟩ := (hT t' h).2 (by omega)
  rw [e1, e2]

theorem rout_odd (c : Dev nD) (t : Fin cfg0.N) (ht : t.val % 2 = 1) {a0 a1 : Vec F S512x2048 .bf16} {r0 r1 : Vec F S1x512 .f32}
    (hT : Tracked m c t.val a0 a1 r0 r1) (Y : Vec F S2048x512 .f32) : Rout m c t Y (outOf (utBlk m c t) a0 r0) := fun t' h => by
  obtain ⟨e1, e2⟩ := (hT t' h).1 (by omega)
  rw [e1, e2]

/-- The exact data of the two inputs (each buffer at its block after every point); the output named nowhere. -/
def dat (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
  Φ t := PhiT m c t.val
  q _ := fullShare
  owed _ := 0

/-- The output window's relation replaces the exact data's; the inputs keep theirs. -/
def ovr (c : Dev nD) : (w : Fin cfg0.W) → Option (Fin cfg0.N → (Y X : (cfg0.win w).block.Idx → Elt F (cfg0.win w).elt) → Prop)
  | ⟨0, _⟩ => none
  | ⟨1, _⟩ => none
  | ⟨2, _⟩ => some (Rout m c)

/-- The proof data: exact for the inputs, relational for the output. -/
def rdat (c : Dev nD) : RDat τ (Elt F) Unit ℕ (UR sig nD τ) ℕ cfg0 c := (dat m c).toR.override (ovr m c)

theorem A_eq (c : Dev nD) (w : Fin cfg0.W) : (rdat m c).A w = V m c (Pipeline.arrRef spec0 w) := by
  show (dat m c).A w = _; dsimp only [dat]

theorem datA_eq (c : Dev nD) (w : Fin cfg0.W) : (dat m c).A w = V m c (Pipeline.arrRef spec0 w) := by
  dsimp only [dat]

theorem after0 (c : Dev nD) (t : Fin cfg0.N) : (dat m c).after 0 t = iblk m c 0 t := by dsimp only [dat]
theorem after1 (c : Dev nD) (t : Fin cfg0.N) : (dat m c).after 1 t = iblk m c 1 t := by dsimp only [dat]

theorem before0 (c : Dev nD) (t : Fin cfg0.N) (d) : (dat m c).before 0 t d = iblk m c 0 t :=
  before0_0_of m (dat m c) (datA_eq m c 0) (after0 m c) t d
theorem before1 (c : Dev nD) (t : Fin cfg0.N) (d) : (dat m c).before 1 t d = iblk m c 1 t :=
  before0_1_of m (dat m c) (datA_eq m c 1) (after1 m c) t d

/-- What the body may find in an input's buffer is its block. -/
theorem finds0 (c : Dev nD) (t : Fin cfg0.N) (Y) (h : (rdat m c).Finds 0 t Y) : Y = iblk m c 0 t := by
  obtain ⟨d, rfl⟩ := (dat m c).toR_finds 0 t Y (((dat m c).toR.override_finds (ovr := ovr m c) (w := 0) rfl t Y).mp h)
  exact before0 m c t d
theorem finds1 (c : Dev nD) (t : Fin cfg0.N) (Y) (h : (rdat m c).Finds 1 t Y) : Y = iblk m c 1 t := by
  obtain ⟨d, rfl⟩ := (dat m c).toR_finds 1 t Y (((dat m c).toR.override_finds (ovr := ovr m c) (w := 1) rfl t Y).mp h)
  exact before1 m c t d

/-- Leaving an input's buffer at its block is what the data asks of it. -/
theorem leaves0 (c : Dev nD) (t : Fin cfg0.N) (Y) : (rdat m c).after 0 t Y (iblk m c 0 t) := by
  show ((dat m c).toR.override (ovr m c)).after 0 t Y _
  rw [(dat m c).toR.override_after_of_eq_none (ovr := ovr m c) (w := 0) rfl]
  show (dat m c).Leaves 0 t _
  rw [Dat.Leaves.live_iff _ (.inl (liveAt0 t))]
  exact (after0 m c t).symm
theorem leaves1 (c : Dev nD) (t : Fin cfg0.N) (Y) : (rdat m c).after 1 t Y (iblk m c 1 t) := by
  show ((dat m c).toR.override (ovr m c)).after 1 t Y _
  rw [(dat m c).toR.override_after_of_eq_none (ovr := ovr m c) (w := 1) rfl]
  show (dat m c).Leaves 1 t _
  rw [Dat.Leaves.live_iff _ (.inl (liveAt1 t))]
  exact (after1 m c t).symm

/-- The output window's relation is `Rout`. -/
theorem afterOut (c : Dev nD) : (rdat m c).after 2 = Rout m c :=
  (dat m c).toR.override_after_of_eq_some (ovr := ovr m c) (w := 2) rfl

/-- The invariant at a point's start and end. -/
theorem Phi_castSucc (c : Dev nD) (t : Fin cfg0.N) : (rdat m c).Φ t.castSucc = PhiT m c t.val := by
  show (dat m c).Φ t.castSucc = _; dsimp only [dat]; simp only [Fin.coe_castSucc]
theorem Phi_succ (c : Dev nD) (t : Fin cfg0.N) : (rdat m c).Φ t.succ = PhiT m c (t.val + 1) := by
  show (dat m c).Φ t.succ = _; dsimp only [dat]; simp only [Fin.val_succ]

/-- The region's invariant yields the tracking one before the first point (nothing tracked yet), -/
theorem hin (c : Dev nD) : Pipeline.ΦA spec0 c ⊢ (rdat m c).Φ 0 := by
  show _ ⊢ PhiT m c 0
  rw [PhiA_eq]; unfold PhiT
  iintro ⟨⟨⟨%a0, HA0⟩, ⟨%a1, HA1⟩, ⟨%r0, HR0⟩, ⟨%r1, HR1⟩⟩, Hg⟩
  isplitl [HA0 HA1 HR0 HR1]
  · iexists a0, a1, r0, r1
    isplitr; · ipureintro; exact tracked_zero m c a0 a1 r0 r1
    isplitl [HA0]; · iexact HA0
    isplitl [HA1]; · iexact HA1
    isplitl [HR0]; · iexact HR0
    iexact HR1
  iexact Hg

/-- and the tracking invariant gives it back after the last point (the scratch contents forgotten). -/
theorem hout (c : Dev nD) : (rdat m c).Φ (Fin.last cfg0.N) ⊢ Pipeline.ΦA spec0 c := by
  show PhiT m c _ ⊢ _
  rw [PhiA_eq]; unfold PhiT
  iintro ⟨⟨%a0, %a1, %r0, %r1, -, HA0, HA1, HR0, HR1⟩, Hg⟩
  isplitl [HA0 HA1 HR0 HR1]
  · isplitl [HA0]; · iexists _; iexact HA0
    isplitl [HA1]; · iexists _; iexact HA1
    isplitl [HR0]; · iexists _; iexact HR0
    iexists _; iexact HR1
  iexact Hg

end Cert.KernelIdeal.Hand

end
-- ==== Proof.KI.RunEven.lean ====
/-
  The kernel body at an even grid point, run once symbolically. Handed the `ut` block, the block of scores,
  and the OTHER parity's numerator and reciprocal scratch at contents `xa`, `xr` (its own pair and the output
  buffer at anything), it leaves the inputs and the other pair as they were, its own pair at the numerator
  `exp (s - rowmax s)` and the reciprocal row sums of THIS block of scores, and the output buffer at
  `(ut · xaᵀ) * xr`: the product stage reads what the point before stored, never what this point stores.
-/
import proofs.«173379_g77283641524595_feedfinal_129_4_alg».proof.Proof.KI.Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem runEven (c : Dev nD) (i : grid0.Coords) (arg1 : Memref sig .tc .vmem S2048x2048 .bf16) (harg1 : arg1.IsWhole) (arg2 : Memref sig .tc .vmem S512x2048 .f32) (harg2 : arg2.IsWhole) (arg3 : Memref sig .tc .vmem S2048x512 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S1x512 .f32) (harg6 : arg6.IsWhole) (arg7 : Memref sig .tc .vmem S1x512 .f32) (harg7 : arg7.IsWhole) (hcE : k0_cond1 i = 1#1) (hcO : ¬ k0_cond2 i = 1#1)
    (x0 : Vec F S2048x2048 .bf16) (x1 : Vec F S512x2048 .f32) (xa : Vec F S512x2048 .bf16) (xr : Vec F S1x512 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xa ∗ (∃ d, owns (c : Thread nD τ) arg6 fullShare d) ∗ owns (c : Thread nD τ) arg7 fullShare xr
            ∗ (iprop(owns (c : Thread nD τ) arg1 fullShare x0 ∗ owns (c : Thread nD τ) arg2 fullShare x1 ∗ owns (c : Thread nD τ) arg3 fullShare (outOf x0 xa xr) ∗ owns (c : Thread nD τ) arg4 fullShare (numOf x1) ∗ owns (c : Thread nD τ) arg5 fullShare xa ∗ owns (c : Thread nD τ) arg6 fullShare (recOf x1) ∗ owns (c : Thread nD τ) arg7 fullShare xr) -∗ K ⟨⟩))
          ⊢ wp frame (wpE (defs₀ (F := F)) Variants.none c none) E (cc0_context2query_fused i arg1 harg1 arg2 harg2 arg3 harg3 arg4 harg4 arg5 harg5 arg6 harg6 arg7 harg7) K := by
    intro E K
    simp only [cc0_context2query_fused_eq_skeleton]; unfold cc0_context2query_fused_skel
    unfold owns
    iintro ⟨⟨%f0, %hf0, H0⟩, ⟨%f1, %hf1, H1⟩, ⟨%d2, %f2, -, H2⟩, ⟨%darg4, %farg4, -, HA0⟩, ⟨%farg5, %hfarg5, HA1⟩, ⟨%darg6, %farg6, -, HR0⟩, ⟨%farg7, %hfarg7, HR1⟩, Hk⟩
    obtain rfl := harg1.eq_unread hf0; obtain rfl := harg2.eq_unread hf1
    obtain rfl := harg5.eq_unread hfarg5; obtain rfl := harg7.eq_unread hfarg7
    sl_exec (disch := first | exact hcE | exact hcO)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      rw [View.read_writes_eq_canon _ _ _ (fun y => ⟨_, List.mem_singleton_self _, View.mem_set_unit_zero hz2 inb_S2048x512_S2048x512_0_0 y⟩), View.canon_unit_zero hz2]
      simp only [View.readAt_eq_ld, harg1.read_unread, harg2.read_unread, harg5.read_unread, harg7.read_unread, View.ld_unit_zero (S := S2048x2048) hz2, View.ld_unit_zero (S := S512x2048) hz2, View.ld_unit_zero (S := S1x512) hz2]
    isplitl [HA0]
    · iexists _; isplitr; swap; · iexact HA0
      ipureintro
      rw [View.read_writes_eq_canon _ _ _ (fun y => ⟨_, List.mem_singleton_self _, View.mem_set_unit_zero hz2 inb_S512x2048_S512x2048_0_0 y⟩), View.canon_unit_zero hz2]
      simp only [View.readAt_eq_ld, harg1.read_unread, harg2.read_unread, harg5.read_unread, harg7.read_unread, View.ld_unit_zero (S := S2048x2048) hz2, View.ld_unit_zero (S := S512x2048) hz2, View.ld_unit_zero (S := S1x512) hz2]
    isplitl [HA1]
    · iexists _; isplitr; · ipureintro; exact harg5.read_unread _
      iexact HA1
    isplitl [HR0]
    · iexists _; isplitr; swap; · iexact HR0
      ipureintro
      rw [View.read_writes_eq_canon _ _ _ (fun y => ⟨_, List.mem_singleton_self _, View.mem_set_unit_zero hz2 inb_S1x512_S1x512_0_0 y⟩), View.canon_unit_zero hz2]
      simp only [View.readAt_eq_ld, harg1.read_unread, harg2.read_unread, harg5.read_unread, harg7.read_unread, View.ld_unit_zero (S := S2048x2048) hz2, View.ld_unit_zero (S := S512x2048) hz2, View.ld_unit_zero (S := S1x512) hz2]
    iexists _; isplitr; · ipureintro; exact harg7.read_unread _
    iexact HR1

end Cert.KernelIdeal.Hand

end
-- ==== Proof.KI.RunOdd.lean ====
/-
  The kernel body at an odd grid point, run once symbolically. Handed the `ut` block, the block of scores,
  and the OTHER parity's numerator and reciprocal scratch at contents `xa`, `xr` (its own pair and the output
  buffer at anything), it leaves the inputs and the other pair as they were, its own pair at the numerator
  `exp (s - rowmax s)` and the reciprocal row sums of THIS block of scores, and the output buffer at
  `(ut · xaᵀ) * xr`: the product stage reads what the point before stored, never what this point stores.
-/
import proofs.«173379_g77283641524595_feedfinal_129_4_alg».proof.Proof.KI.Common

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
theorem runOdd (c : Dev nD) (i : grid0.Coords) (arg1 : Memref sig .tc .vmem S2048x2048 .bf16) (harg1 : arg1.IsWhole) (arg2 : Memref sig .tc .vmem S512x2048 .f32) (harg2 : arg2.IsWhole) (arg3 : Memref sig .tc .vmem S2048x512 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S1x512 .f32) (harg6 : arg6.IsWhole) (arg7 : Memref sig .tc .vmem S1x512 .f32) (harg7 : arg7.IsWhole) (hcE : ¬ k0_cond1 i = 1#1) (hcO : k0_cond2 i = 1#1)
    (x0 : Vec F S2048x2048 .bf16) (x1 : Vec F S512x2048 .f32) (xa : Vec F S512x2048 .bf16) (xr : Vec F S1x512 .f32) :
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xa ∗ (∃ d, owns (c : Thread nD τ) arg5 fullShare d) ∗ owns (c : Thread nD τ) arg6 fullShare xr ∗ (∃ d, owns (c : Thread nD τ) arg7 fullShare d)
            ∗ (iprop(owns (c : Thread nD τ) arg1 fullShare x0 ∗ owns (c : Thread nD τ) arg2 fullShare x1 ∗ owns (c : Thread nD τ) arg3 fullShare (outOf x0 xa xr) ∗ owns (c : Thread nD τ) arg4 fullShare xa ∗ owns (c : Thread nD τ) arg5 fullShare (numOf x1) ∗ owns (c : Thread nD τ) arg6 fullShare xr ∗ owns (c : Thread nD τ) arg7 fullShare (recOf x1)) -∗ K ⟨⟩))
          ⊢ wp frame (wpE (defs₀ (F := F)) Variants.none c none) E (cc0_context2query_fused i arg1 harg1 arg2 harg2 arg3 harg3 arg4 harg4 arg5 harg5 arg6 harg6 arg7 harg7) K := by
    intro E K
    simp only [cc0_context2query_fused_eq_skeleton]; unfold cc0_context2query_fused_skel
    unfold owns
    iintro ⟨⟨%f0, %hf0, H0⟩, ⟨%f1, %hf1, H1⟩, ⟨%d2, %f2, -, H2⟩, ⟨%farg4, %hfarg4, HA0⟩, ⟨%darg5, %farg5, -, HA1⟩, ⟨%farg6, %hfarg6, HR0⟩, ⟨%darg7, %farg7, -, HR1⟩, Hk⟩
    obtain rfl := harg1.eq_unread hf0; obtain rfl := harg2.eq_unread hf1
    obtain rfl := harg4.eq_unread hfarg4; obtain rfl := harg6.eq_unread hfarg6
    sl_exec (disch := first | exact hcE | exact hcO)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      rw [View.read_writes_eq_canon _ _ _ (fun y => ⟨_, List.mem_singleton_self _, View.mem_set_unit_zero hz2 inb_S2048x512_S2048x512_0_0 y⟩), View.canon_unit_zero hz2]
      simp only [View.readAt_eq_ld, harg1.read_unread, harg2.read_unread, harg4.read_unread, harg6.read_unread, View.ld_unit_zero (S := S2048x2048) hz2, View.ld_unit_zero (S := S512x2048) hz2, View.ld_unit_zero (S := S1x512) hz2, pay6_eq, pay7_eq, pay8_eq]
    isplitl [HA0]
    · iexists _; isplitr; · ipureintro; exact harg4.read_unread _
      iexact HA0
    isplitl [HA1]
    · iexists _; isplitr; swap; · iexact HA1
      ipureintro
      rw [View.read_writes_eq_canon _ _ _ (fun y => ⟨_, List.mem_singleton_self _, View.mem_set_unit_zero hz2 inb_S512x2048_S512x2048_0_0 y⟩), View.canon_unit_zero hz2]
      simp only [View.readAt_eq_ld, harg1.read_unread, harg2.read_unread, harg4.read_unread, harg6.read_unread, View.ld_unit_zero (S := S2048x2048) hz2, View.ld_unit_zero (S := S512x2048) hz2, View.ld_unit_zero (S := S1x512) hz2, pay6_eq, pay7_eq, pay8_eq]
    isplitl [HR0]
    · iexists _; isplitr; · ipureintro; exact harg6.read_unread _
      iexact HR0
    iexists _; isplitr; swap; · iexact HR1
    ipureintro
    rw [View.read_writes_eq_canon _ _ _ (fun y => ⟨_, List.mem_singleton_self _, View.mem_set_unit_zero hz2 inb_S1x512_S1x512_0_0 y⟩), View.canon_unit_zero hz2]
    simp only [View.readAt_eq_ld, harg1.read_unread, harg2.read_unread, harg4.read_unread, harg6.read_unread, View.ld_unit_zero (S := S2048x2048) hz2, View.ld_unit_zero (S := S512x2048) hz2, View.ld_unit_zero (S := S1x512) hz2, pay6_eq, pay7_eq, pay8_eq]

end Cert.KernelIdeal.Hand

end
-- ==== Proof.KI.Oblig.lean ====
/-
  The body obligation of the relational proof data, at a generic point: the point's parity selects the branch;
  the invariant hands the body the other parity's scratch pair at its tracked contents and its own pair at
  anything; the run returns its own pair at this point's numerator and reciprocal, which is the invariant at
  the next point, and the output buffer at the product over the OTHER pair, which from the second point on is
  what the output's relation names.
-/
import proofs.«173379_g77283641524595_feedfinal_129_4_alg».proof.Proof.KI.Data
import proofs.«173379_g77283641524595_feedfinal_129_4_alg».proof.Proof.KI.RunEven
import proofs.«173379_g77283641524595_feedfinal_129_4_alg».proof.Proof.KI.RunOdd

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- What the body is called with at point `t`, the windows' current buffers at contents `Y`, -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (ms0 t) fullShare (Y 0)
    ∗ owns (c : Thread nD τ) (ms1 t) fullShare (Y 1)
    ∗ owns (c : Thread nD τ) (ms2 t) fullShare (Y 2))

/-- and what it returns. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (ms0 t) fullShare X)
    ∗ (∃ X, ⌜(rdat m c).after 1 t (Y 1) X⌝ ∗ owns (c : Thread nD τ) (ms1 t) fullShare X)
    ∗ (∃ X, ⌜(rdat m c).after 2 t (Y 2) X⌝ ∗ owns (c : Thread nD τ) (ms2 t) fullShare X))

set_option maxHeartbeats 1600000 in
theorem sound_body (c : Dev nD) (t : Fin cfg0.N) (Y : (w : Fin cfg0.W) → (cfg0.win w).block.Idx → Elt F (cfg0.win w).elt)
    (h0 : Y 0 = iblk m c 0 t) (h1 : Y 1 = iblk m c 1 t) :
    bodyPre m c t Y ⊢ wp frame (wpE (defs₀ (F := F)) Variants.none c none) Set.univ (bodyAt0 t) (fun _ => bodyPost m c t Y) := by
  unfold bodyPre bodyPost bodyAt0
  rw [h0, h1]
  rw [show (rdat m c).owesAt () t.succ = (rdat m c).owesAt () t.castSucc from rfl]
  rw [Phi_castSucc, Phi_succ]
  unfold PhiT
  have hN : t.val < 17 := lt_of_lt_of_eq t.isLt (show cfg0.N = 17 from N_0)
  by_cases hpar : t.val % 2 = 0
  ·
    iintro ⟨⟨⟨%a0, %a1, %r0, %r1, %hT, HA0, HA1, HR0, HR1⟩, Hg⟩, Ho, H0, H1, H2⟩
    iapply ((runEven c (grid0.coords t) _ _ _ _ _ _ _ _ _ _ _ _ _ _ ((hcondE t).mpr hpar) (fun h => by have := (hcondO t).mp h; omega) (utBlk m c t) (sBlk m c t) a1 r1) Set.univ _)
    isplitl [H0]; · iexact H0
    isplitl [H1]; · iexact H1
    isplitl [H2]; · iexists _; iexact H2
    isplitl [HA0]; · iexists _; iexact HA0
    isplitl [HA1]; · iexact HA1
    isplitl [HR0]; · iexists _; iexact HR0
    isplitl [HR1]; · iexact HR1
    iintro ⟨H0, H1, H2, HA0, HA1, HR0, HR1⟩
    isplitl [HA0 HA1 HR0 HR1 Hg]
    · isplitl [HA0 HA1 HR0 HR1]
      · iexists (numOf (sBlk m c t)), a1, (recOf (sBlk m c t)), r1
        isplitr; · ipureintro; exact tracked_succ_even m c t hpar a1 r1
        isplitl [HA0]; · iexact HA0
        isplitl [HA1]; · iexact HA1
        isplitl [HR0]; · iexact HR0
        iexact HR1
      iexact Hg
    isplitl [Ho]; · iexact Ho
    isplitl [H0]
    · iexists _; isplitr; swap; · iexact H0
      ipureintro; exact leaves0 m c t _
    isplitl [H1]
    · iexists _; isplitr; swap; · iexact H1
      ipureintro; exact leaves1 m c t _
    iexists _; isplitr; swap; · iexact H2
    ipureintro; rw [afterOut]; exact rout_even m c t hpar hT _
  · have hpar : t.val % 2 = 1 := by omega
    iintro ⟨⟨⟨%a0, %a1, %r0, %r1, %hT, HA0, HA1, HR0, HR1⟩, Hg⟩, Ho, H0, H1, H2⟩
    iapply ((runOdd c (grid0.coords t) _ _ _ _ _ _ _ _ _ _ _ _ _ _ (fun h => by have := (hcondE t).mp h; omega) ((hcondO t).mpr hpar) (utBlk m c t) (sBlk m c t) a0 r0) Set.univ _)
    isplitl [H0]; · iexact H0
    isplitl [H1]; · iexact H1
    isplitl [H2]; · iexists _; iexact H2
    isplitl [HA0]; · iexact HA0
    isplitl [HA1]; · iexists _; iexact HA1
    isplitl [HR0]; · iexact HR0
    isplitl [HR1]; · iexists _; iexact HR1
    iintro ⟨H0, H1, H2, HA0, HA1, HR0, HR1⟩
    isplitl [HA0 HA1 HR0 HR1 Hg]
    · isplitl [HA0 HA1 HR0 HR1]
      · iexists a0, (numOf (sBlk m c t)), r0, (recOf (sBlk m c t))
        isplitr; · ipureintro; exact tracked_succ_odd m c t hpar a0 r0
        isplitl [HA0]; · iexact HA0
        isplitl [HA1]; · iexact HA1
        isplitl [HR0]; · iexact HR0
        iexact HR1
      iexact Hg
    isplitl [Ho]; · iexact Ho
    isplitl [H0]
    · iexists _; isplitr; swap; · iexact H0
      ipureintro; exact leaves0 m c t _
    isplitl [H1]
    · iexists _; isplitr; swap; · iexact H1
      ipureintro; exact leaves1 m c t _
    iexists _; isplitr; swap; · iexact H2
    ipureintro; rw [afterOut]; exact rout_odd m c t hpar hT _

/-- The library's body obligation of the relational data, at every point. -/
theorem body_obligation (c : Dev nD) : (rdat m c).BodyObligation (defs₀ (F := F)) Variants.none () Set.univ := fun t Y hY => by
  rw [bigSep_W0, bigSep_W0]
  exact sound_body m c t Y (finds0 m c t _ (hY 0)) (finds1 m c t _ (hY 1))

end Cert.KernelIdeal.Hand

end
-- ==== Proof.KI.Launch.lean ====
/-
  The launch: @main's three host operations, then the region run from the relational proof data with the
  tracking invariant; and the frame claim read off its post (the scores' array is a staged input, so it ends
  as it was entered; `u` is staged by no window and no host operation writes it).
-/
import proofs.«173379_g77283641524595_feedfinal_129_4_alg».proof.Proof.KI.Oblig

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, each window's array at SOME contents the relational data
    allows after every write-back, every other unscoped buffer as the region found it. -/
theorem run_main : θ_run defs (onTc (τ := τ) (main (F := F))) (s₀ m ρ) (Pipeline.RDat.FramePost (cfgs 0) (rdat m) (V m)) :=
  Pipeline.RDat.θ_run_frame_track cfgs (0 : Fin 1) launch0 defs₀ Variants.none (rdat m) m ρ main
    (hbody := body_obligation m) (hshare := fun c => ((rdat m c)).share_full fun _ => rfl)
    (howed := fun _ _ => rfl) (V := V m) (hmain := hmain m Variants.none) (hA := A_eq m) (hin := hin m) (hout := hout m)

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((A_eq m c 1).trans (V_main_arg1 m c))⟩) (run_main m ρ)

end Cert.KernelIdeal.Hand

end
-- ==== Proof.KI.ArraySpec.lean ====
/-
  The kernel's whole output array as ONE function of the transposed values `ut` and the scores `s`: column
  `r` of the result lies in column block `r / 512`, which the product stage fills from the numerator and the
  reciprocal row sums of rows `512 (r / 512) …` of the scores.
-/
import proofs.«173379_g77283641524595_feedfinal_129_4_alg».proof.Proof.KI.Common
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen
open Idealize.ShloMosaic.ValueIdx
variable {F : FTy → Type} [FloatOps F]

local notation "𝕄" => MT nD τ sig Unit (Elt F) ℕ (UR sig nD τ) ℕ

/-- Rows `512 b … 512 b + 511` of the scores. -/
def rowsOf (s : Vec F S8192x2048 .f32) (b : Fin 16) : Vec F S512x2048 .f32 :=
  fun y => s (ix2 (⟨512 * b.val + (y 0).val, by have h := (y 0).isLt; have hb := b.isLt; change (y 0).val < 512 at h; omega⟩ : Fin 8192) (y 1))

/-- The whole result. -/
def KG (ut : Vec F S2048x2048 .bf16) (s : Vec F S8192x2048 .f32) : Vec F S2048x8192 .f32 := fun i =>
  outOf ut (numOf (rowsOf s (⟨(i 1).val / 512, by have h := (i 1).isLt; change (i 1).val < 8192 at h; omega⟩ : Fin 16)))
    (recOf (rowsOf s (⟨(i 1).val / 512, by have h := (i 1).isLt; change (i 1).val < 8192 at h; omega⟩ : Fin 16)))
    (ix2 (i 0) (⟨(i 1).val % 512, Nat.mod_lt _ (by decide)⟩ : Fin 512))

end Cert.KernelIdeal.Hand

end
-- ==== Proof.KI.ArrayValue.lean ====
/-
  The output array after the run, as one function of the transposed values and the scores. What the output
  window's array may hold after every write-back is determined: every point but the first writes back the named
  block (the product of `ut` with the numerator of the scores the point before staged, scaled by its
  reciprocal), so the array's contents follow the exact data that names that block at every point. Block `t`
  (`t ≥ 1`) is columns `512 (t - 1) …` of the whole result, and these sixteen column blocks cover the array.
-/
import proofs.«173379_g77283641524595_feedfinal_129_4_alg».proof.Proof.KI.Data
import proofs.«173379_g77283641524595_feedfinal_129_4_alg».proof.Proof.KI.ArraySpec
import Idealize.ShloMosaic.Lib.Pipeline.Value
import Idealize.ShloMosaic.Lib.Pipeline.Cells
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt F) ℓ)

/-! ## The exact data: the output buffer named at every point -/

/-- The point before `t` (the first point itself at the first). -/
def prevPt (t : Fin cfg0.N) : Fin cfg0.N := ⟨t.val - 1, Nat.lt_of_le_of_lt (Nat.sub_le _ _) t.isLt⟩

/-- The block the product stage leaves at point `t`: `ut` contracted with the numerator of the scores the point
    before staged, each column scaled by the reciprocal of its row sum. -/
def outBlk (c : Dev nD) (t : Fin cfg0.N) : Vec F S2048x512 .f32 :=
  outOf (utBlk m c t) (numOf (sBlk m c (prevPt t))) (recOf (sBlk m c (prevPt t)))

/-- After the first point the output window's relation names exactly that block. -/
theorem rout_names (c : Dev nD) (t : Fin cfg0.N) (ht : t.val ≠ 0) (Y X : Vec F S2048x512 .f32) (h : Rout m c t Y X) :
    X = outBlk m c t :=
  h (prevPt t) (by show t.val - 1 + 1 = t.val; omega)

/-- The exact data with the output buffer at the named block after every point. -/
def datX (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outBlk m c t
  Φ t := PhiT m c t.val
  q _ := fullShare
  owed _ := 0

theorem datX_A (c : Dev nD) (w : Fin cfg0.W) : (datX m c).A w = V m c (Pipeline.arrRef spec0 w) := by
  dsimp only [datX]

theorem datX_after2 (c : Dev nD) (t : Fin cfg0.N) : (datX m c).after 2 t = outBlk m c t := by dsimp only [datX]

/-- What the output array may hold after the write-backs below `n` is what the exact data names. -/
theorem arrAt_exact (c : Dev nD) : ∀ (n : ℕ) (G : Buf (Elt F) ((cfg0.win 2).arr.view.loc (c.tc : Thread nD τ))),
    (rdat m c).ArrAt 2 n G → G = (datX m c).arrAt 2 n
  | 0, G, h => h.trans ((A_eq m c 2).trans (datX_A m c 2).symm)
  | n + 1, G, h => by
    by_cases hn : n < cfg0.N
    · have hR := (rdat m c).ArrAt_succ 2 ⟨n, hn⟩
      have hD := (datX m c).arrAt_succ 2 ⟨n, hn⟩
      dsimp only at hR hD
      rw [hR] at h; rw [hD]
      by_cases hfl : (cfg0.win 2).flush ⟨n, hn⟩ = true
      · rw [if_pos hfl] at h ⊢
        obtain ⟨G₀, X, hG₀, ⟨Y, _, hX⟩, rfl⟩ := h
        rw [afterOut] at hX
        rw [arrAt_exact c n G₀ hG₀, rout_names m c ⟨n, hn⟩ ((flushOut _).mp hfl) Y X hX]
        rfl
      · rw [if_neg hfl] at h ⊢; exact arrAt_exact c n G h
    · have hN : cfg0.N ≤ n := Nat.not_lt.mp hn
      rw [(rdat m c).ArrAt_stable 2 (n + 1) (by omega), ← (rdat m c).ArrAt_stable 2 n hN] at h
      rw [(datX m c).arrAt_stable 2 (n + 1) (by omega), ← (datX m c).arrAt_stable 2 n hN]
      exact arrAt_exact c n G h

/-! ## Each block as a rectangle of its array -/

/-- The whole result read at an index of column block `b`: the product stage over rows `512 b …` of the scores. -/
theorem KG_at_block (ut : Vec F S2048x2048 .bf16) (s : Vec F S8192x2048 .f32) (i : S2048x8192.Idx) (b : Fin 16) (j : S2048x512.Idx)
    (h0 : (i 0).val = (j 0).val) (h1 : (i 1).val = 512 * b.val + (j 1).val) :
    KG ut s i = outOf ut (numOf (rowsOf s b)) (recOf (rowsOf s b)) j := by
  have hj1 : (j 1).val < 512 := idx2_lt1 j
  have hb : (⟨(i 1).val / 512, by have h := (i 1).isLt; change (i 1).val < 8192 at h; omega⟩ : Fin 16) = b :=
    Fin.ext (by show (i 1).val / 512 = b.val; omega)
  have hj : ix2 (i 0) (⟨(i 1).val % 512, Nat.mod_lt _ (by decide)⟩ : Fin 512) = j := by
    funext a
    match a with
    | ⟨0, _⟩ => exact Fin.ext h0
    | ⟨1, _⟩ => exact Fin.ext (by show (i 1).val % 512 = (j 1).val; omega)
  show outOf ut (numOf (rowsOf s ⟨(i 1).val / 512, _⟩)) (recOf (rowsOf s ⟨(i 1).val / 512, _⟩)) (ix2 (i 0) ⟨(i 1).val % 512, _⟩) = _
  rw [hb]
  exact congrArg _ hj

/-- The block of `ut` staged at a point is the whole array. -/
theorem utBlk_eq (c : Dev nD) (t : Fin cfg0.N) : utBlk m c t = V m c main_v2 := by
  obtain ⟨e0, e1⟩ := indexU t
  funext y
  show V m c main_v2 (((cfg0.win 0).blk t).view.emb y) = V m c main_v2 y
  refine congrArg _ (funext fun a => Fin.ext ?_)
  match a with
  | ⟨0, _⟩ => show win0_0.index t (0 : Fin 2) * 2048 + 1 * (y 0).val = (y 0).val; omega
  | ⟨1, _⟩ => show win0_0.index t (1 : Fin 2) * 2048 + 1 * (y 1).val = (y 1).val; omega

/-- The block of scores staged at point `t`, for `t` below 16, is rows `512 t …` of the scores. -/
theorem sBlk_eq (c : Dev nD) (t : Fin cfg0.N) (b : Fin 16) (hb : b.val = t.val) : sBlk m c t = rowsOf (V m c main_arg1) b := by
  obtain ⟨e0, e1⟩ := indexS t
  have hb16 : b.val < 16 := b.isLt
  funext y
  show V m c main_arg1 (((cfg0.win 1).blk t).view.emb y) = V m c main_arg1 (ix2 (⟨512 * b.val + (y 0).val, _⟩ : Fin 8192) (y 1))
  refine congrArg _ (funext fun a => Fin.ext ?_)
  match a with
  | ⟨0, _⟩ => show win0_1.index t (0 : Fin 2) * 512 + 1 * (y 0).val = 512 * b.val + (y 0).val; omega
  | ⟨1, _⟩ => show win0_1.index t (1 : Fin 2) * 2048 + 1 * (y 1).val = (y 1).val; omega

/-- What a point after the first writes back is its column block of the whole result. -/
theorem flushedX_eq (c : Dev nD) (t : Fin cfg0.N) (hf : (cfg0.win 2).flush t = true) :
    (datX m c).flushed 2 t = ((cfg0.win 2).blk t).view.read (Elt F) (KG (V m c main_v2) (V m c main_arg1)) := by
  have ht : t.val ≠ 0 := (flushOut t).mp hf
  have hN : t.val < 17 := t.isLt
  obtain ⟨o0, o1⟩ := indexOut t
  have hb : t.val - 1 < 16 := by omega
  show (cfg0.win 2).cut (grid0.coords t) ((datX m c).after 2 t) = _
  rw [datX_after2]
  funext j
  refine Eq.trans ?_ (KG_at_block (V m c main_v2) (V m c main_arg1) (((cfg0.win 2).blk t).view.emb j) ⟨t.val - 1, hb⟩ j ?_ ?_).symm
  · show outOf (utBlk m c t) (numOf (sBlk m c (prevPt t))) (recOf (sBlk m c (prevPt t))) j = _
    rw [utBlk_eq m c t, sBlk_eq m c (prevPt t) ⟨t.val - 1, hb⟩ rfl]
  · show win0_2.index t (0 : Fin 2) * 2048 + 1 * (j 0).val = (j 0).val; omega
  · show win0_2.index t (1 : Fin 2) * 512 + 1 * (j 1).val = 512 * (t.val - 1) + (j 1).val; omega

/-- Column `r` of the array lies in the block of point `r / 512 + 1`, which is written back. -/
theorem covered (i : S2048x8192.Idx) : ∃ t : Fin cfg0.N, (cfg0.win 2).flush t = true ∧ i ∈ ((cfg0.win 2).blk t).view.set := by
  have hi0 : (i 0).val < 2048 := idx2_lt0 i
  have hi1 : (i 1).val < 8192 := idx2_lt1 i
  have hN : cfg0.N = 17 := N_0
  obtain ⟨t, htv⟩ : ∃ t : Fin cfg0.N, t.val = (i 1).val / 512 + 1 := ⟨⟨(i 1).val / 512 + 1, by rw [hN]; omega⟩, rfl⟩
  obtain ⟨o0, o1⟩ := indexOut t
  refine ⟨t, (flushOut t).mpr (by omega), ?_⟩
  show i ∈ ((View.whole main_v3).slice (win0_2.rect t)).set
  rw [View.set_slice_whole, Rect.mem_set_unit]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 512 ≤ (i 1).val ∧ (i 1).val < win0_2.index t (1 : Fin 2) * 512 + 512; omega

/-! ## The array after the run -/

/-- Whatever the output array may hold after every write-back is the whole result. -/
theorem final_out (c : Dev nD) (X : Buf (Elt F) ((cfg0.win 2).arr.view.loc (c.tc : Thread nD τ))) (h : (rdat m c).ArrAt 2 cfg0.N X) :
    X = KG (V m c main_v2) (V m c main_arg1) :=
  (arrAt_exact m c cfg0.N X h).trans
    ((datX m c).arrAt_eq_of_cover 2 (KG (V m c main_v2) (V m c main_arg1)) (fun t hf => flushedX_eq m c t hf) covered)

end Cert.KernelIdeal.Hand

end
-- ==== Proof.KI.Value.lean ====
/-
  The idealized kernel's run with its result named: the frame run hands the result array at some contents the
  relational data allows after every write-back, and those contents are the whole-array function of `ut` and
  the scores.
-/
import proofs.«173379_g77283641524595_feedfinal_129_4_alg».proof.Proof.KI.Launch
import proofs.«173379_g77283641524595_feedfinal_129_4_alg».proof.Proof.KI.ArrayValue

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen
open Idealize.ShloMosaic.ValueIdx
variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The kernel's run with its result named: every weakly fair execution of @main terminates with the result array at
    the whole-array function of `ut` and the scores, and the two arguments as launched. -/
theorem run_value : θ_run defs (onTc (τ := τ) (main (F := F))) ⟨m, fun _ => 0, ρ⟩ (fun r => ∀ c : Dev nD,
      r.2.mem ((c.tc : Thread nD τ).loc main_v3) = KG (V m c main_v2) (V m c main_arg1)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨final_out m c _ ((h c).1 2),
      ((h c).2 main_arg0 (Pipeline.mem_restRefs_of main_arg0 (by decide) (by decide))).trans (V_main_arg0 m c),
      (Pipeline.RDat.FramePost.arr_in h c 1 rfl).trans ((A_eq m c 1).trans (V_main_arg1 m c))⟩) (run_main m ρ)

end Cert.KernelIdeal.Hand

end
-- ==== Proof.Spec.lean ====
/-
  The common specification, over the extended reals. For scores `s` (8192 rows of 2048) and values `u`
  (2048 by 2048): a row's maximum, its softmax numerator `exp (s - rowmax)` and denominator (the numerator's row
  sum); the attention-pooled result in the kernel's arrangement — the contraction of `u` with the numerator,
  then one multiplication by the reciprocal of the denominator — and in the reference's — each numerator entry
  divided by the denominator, then the contraction. For real entries the two agree: the denominator is a
  positive real, so dividing by it is multiplying by its reciprocal, and a real factor moves across a finite sum.
-/
import Idealize.ShloMosaic.PureOps.Ideal
import Idealize.ShloMosaic.Lib.ValueIdx

noncomputable section

namespace Cert.Spec

open Idealize.ShloMosaic Idealize.ShloMosaic.ValueIdx

abbrev SU : Shape := ⟨3, ![1, 2048, 2048]⟩
abbrev SS : Shape := ⟨2, ![8192, 2048]⟩
abbrev SO : Shape := ⟨2, ![2048, 8192]⟩

/-- The maximum of row `r` of the scores, folded from the bottom element. -/
def rowMax (s : SS.Idx → EReal) (r : Fin 8192) : EReal :=
  (Finset.univ : Finset (Fin 2048)).fold max (Ideal.ofBits .f32 0xFF800000#32) (fun j => s (ix2 r j))

/-- The softmax numerator. -/
def num (s : SS.Idx → EReal) (r : Fin 8192) (j : Fin 2048) : EReal := Ideal.exp (s (ix2 r j) - rowMax s r)

/-- The softmax denominator. -/
def den (s : SS.Idx → EReal) (r : Fin 8192) : EReal := ∑ j : Fin 2048, num s r j

/-- The kernel's arrangement: contract first, scale by the reciprocal once. -/
def kernelForm (u : SU.Idx → EReal) (s : SS.Idx → EReal) (d : Fin 2048) (r : Fin 8192) : EReal :=
  (∑ j : Fin 2048, u (ix3 (0 : Fin 1) j d) * num s r j) * Ideal.div (Ideal.ofBits .f32 0x3F800000#32) (den s r)

/-- The reference's arrangement: normalise each entry, then contract. -/
def refForm (u : SU.Idx → EReal) (s : SS.Idx → EReal) (d : Fin 2048) (r : Fin 8192) : EReal :=
  ∑ j : Fin 2048, Ideal.div (num s r j) (den s r) * u (ix3 (0 : Fin 1) j d)

end Cert.Spec

end
-- ==== Proof.KernelAt.lean ====
/-
  The kernel's whole result read at one element. Column `r` of the result lies in column block `r / 512`; there
  the product stage contracts `ut` with the softmax numerator of the block's rows of scores and scales the
  column by the reciprocal of the numerator's row sum. Read at an index, the numerator is the exponential of a
  score less its row's maximum (the fold of `max` over the row from the bottom element), the reciprocal is one
  divided by the sum of the row's numerators, and the contraction is the sum over the 2048 queries; row
  `r % 512` of block `r / 512` of the scores is row `r`.
-/
import proofs.«173379_g77283641524595_feedfinal_129_4_alg».proof.Proof.KI.ArraySpec
import proofs.«173379_g77283641524595_feedfinal_129_4_alg».proof.Proof.Spec
import Idealize.ShloMosaic.PureOps.Ideal.Laws
import Idealize.ShloMosaic.Lib.ValueIdx
import Idealize.ShloMosaic.Lib.Pipeline.Value
import Idealize.ShloMosaic.Lib.ValueLayout

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.KernelIdeal Cert.KernelIdeal.Gen
open Idealize.ShloMosaic.ValueIdx
variable {F : FTy → Type} [FloatOps F]

local notation "𝕄" => MT nD τ sig Unit (Elt F) ℕ (UR sig nD τ) ℕ

/-! ## The keepdims column: a vector as a column, a column over many lanes -/

/-- An `[a]` vector cast to the column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column at `i`. -/
theorem broadcastTo_a1_ab_apply {α : Type} {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-! ## The two lane reductions of a block of scores, read at a row -/

/-- The row maximum: the fold of `max` over the row's 2048 entries from the accumulator's value. -/
theorem rowMax_apply (x : FVec Ideal S512x2048 .f32) (q : Fin 512) :
    multiReduction (F := Ideal) .maximumf [1] S512 x 0xFF800000#32 reduces_S512x2048_S512 (.inl rfl) rfl (ix1 q)
      = (Finset.univ : Finset (Fin 2048)).fold max (Ideal.ofBits .f32 0xFF800000#32) (fun j => x (ix2 q j)) := by
  refine (Ideal.multiReduction_maximumf_single x 0xFF800000#32 reduces_S512x2048_S512 (.inl rfl) rfl (ix1 q)).trans ?_
  have e : (x ∘ reduces_S512x2048_S512.lift (ix1 q)) = fun j : Fin 2048 => x (ix2 q j) :=
    funext fun j => congrArg x (funext fun a => Fin.ext (by match a with | ⟨0, _⟩ => rfl | ⟨1, _⟩ => rfl))
  exact congrArg (fun f => (Finset.univ : Finset (Fin 2048)).fold max (Ideal.ofBits .f32 0xFF800000#32) f) e

/-- The row sum: the sum of the row's 2048 entries. -/
theorem rowSum_apply (x : FVec Ideal S512x2048 .f32) (q : Fin 512) :
    multiReduction (F := Ideal) .add [1] S512 x 0x00000000#32 reduces_S512x2048_S512 (.inl rfl) rfl (ix1 q)
      = ∑ j : Fin 2048, x (ix2 q j) := by
  refine (Ideal.multiReduction_add_single x 0x00000000#32 reduces_S512x2048_S512 (.inl rfl) rfl (ix1 q)).trans ?_
  exact Finset.sum_congr rfl fun j _ =>
    congrArg x (funext fun a => Fin.ext (by match a with | ⟨0, _⟩ => rfl | ⟨1, _⟩ => rfl))

/-! ## The softmax stage at an index -/

/-- The numerator before its format change: the exponential of the entry less its row's maximum. -/
theorem pay1_apply (x : Vec Ideal S512x2048 .f32) (q : Fin 512) (j : Fin 2048) :
    k0_pay1 (F := Ideal) x (ix2 q j)
      = Ideal.exp (x (ix2 q j) - (Finset.univ : Finset (Fin 2048)).fold max (Ideal.ofBits .f32 0xFF800000#32) (fun j' => x (ix2 q j'))) := by
  unfold k0_pay1
  show Ideal.exp (x (ix2 q j) - broadcastTo S512x2048 (shapeCast S512x1 (multiReduction (F := Ideal) .maximumf [1] S512 x 0xFF800000#32 reduces_S512x2048_S512 (.inl rfl) rfl) shapeCasts_S512_S512x1) broadcasts_S512x1_S512x2048 (ix2 q j)) = _
  refine congrArg (fun z => Ideal.exp (x (ix2 q j) - z)) ?_
  refine (broadcastTo_a1_ab_apply _ broadcasts_S512x1_S512x2048 q j).trans ?_
  refine (shapeCast_a_a1_apply _ shapeCasts_S512_S512x1 q (0 : Fin 1)).trans ?_
  exact rowMax_apply x q

/-- The stored numerator is the same extended real: the format change is the identity. -/
theorem pay3_apply (x : Vec Ideal S512x2048 .f32) (q : Fin 512) (j : Fin 2048) :
    (k0_pay3 (F := Ideal) x (ix2 q j) : EReal) = k0_pay1 (F := Ideal) x (ix2 q j) := by
  unfold k0_pay3
  show (shapeCast S512x2048 (truncf .bf16 (k0_pay1 (F := Ideal) x) bitsLt_bf16_f32) shapeCasts_S512x2048_S512x2048 (ix2 q j) : EReal) = _
  rw [shapeCast_self]
  rfl

/-- The reciprocal row sums, laid along lanes: one divided by the sum of the row's numerators. -/
theorem pay2_apply (x : Vec Ideal S512x2048 .f32) (q : Fin 512) :
    k0_pay2 (F := Ideal) x (ix2 (0 : Fin 1) q)
      = Ideal.div (Ideal.ofBits .f32 0x3F800000#32) (∑ j : Fin 2048, k0_pay1 (F := Ideal) x (ix2 q j)) := by
  unfold k0_pay2
  show shapeCast S1x512 (shapeCast S1x512 (divf (broadcast S512 (Scalar.ofBits (F := Ideal) .f32 0x3F800000#32)) (multiReduction (F := Ideal) .add [1] S512 (k0_pay1 (F := Ideal) x) 0x00000000#32 reduces_S512x2048_S512 (.inl rfl) rfl)) shapeCasts_S512_S1x512) shapeCasts_S1x512_S1x512 (ix2 (0 : Fin 1) q) = _
  rw [shapeCast_self]
  refine (shapeCast_a_1a_apply _ shapeCasts_S512_S1x512 (0 : Fin 1) q).trans ?_
  show Ideal.div (Ideal.ofBits .f32 0x3F800000#32) (multiReduction (F := Ideal) .add [1] S512 (k0_pay1 (F := Ideal) x) 0x00000000#32 reduces_S512x2048_S512 (.inl rfl) rfl (ix1 q)) = _
  exact congrArg (Ideal.div (Ideal.ofBits .f32 0x3F800000#32)) (rowSum_apply (k0_pay1 (F := Ideal) x) q)

/-! ## The product stage at an index -/

/-- The contraction's operand indices: the left operand at (row, contraction position), -/
theorem lhsU_0 (i : S2048x512.Idx) (k : dot_S2048x2048_S512x2048_S2048x512_1_1_0_0_n_n.contr.Idx) :
    (dot_S2048x2048_S512x2048_S2048x512_1_1_0_0_n_n.lhsIdx i k 0).val = (i 0).val := by
  unfold DotDims.lhsIdx
  rw [dif_neg (show ¬(0 : Fin S2048x2048.rank) ∈ dot_S2048x2048_S512x2048_S2048x512_1_1_0_0_n_n.lhsBatch by decide), dif_pos (show (0 : Fin S2048x2048.rank) ∈ dot_S2048x2048_S512x2048_S2048x512_1_1_0_0_n_n.lhsNonContracting by decide)]
  rfl
theorem lhsU_1 (i : S2048x512.Idx) (k : dot_S2048x2048_S512x2048_S2048x512_1_1_0_0_n_n.contr.Idx) :
    (dot_S2048x2048_S512x2048_S2048x512_1_1_0_0_n_n.lhsIdx i k 1).val = (k ⟨0, by decide⟩).val :=
  dot_S2048x2048_S512x2048_S2048x512_1_1_0_0_n_n.lhsIdx_val_of_single rfl i k
/-- and the right operand at (column, contraction position): both operands are contracted over their lanes. -/
theorem rhsA_0 (i : S2048x512.Idx) (k : dot_S2048x2048_S512x2048_S2048x512_1_1_0_0_n_n.contr.Idx) :
    (dot_S2048x2048_S512x2048_S2048x512_1_1_0_0_n_n.rhsIdx i k 0).val = (i 1).val := by
  unfold DotDims.rhsIdx
  rw [dif_neg (show ¬(0 : Fin S512x2048.rank) ∈ dot_S2048x2048_S512x2048_S2048x512_1_1_0_0_n_n.rhsBatch by decide), dif_pos (show (0 : Fin S512x2048.rank) ∈ dot_S2048x2048_S512x2048_S2048x512_1_1_0_0_n_n.rhsNonContracting by decide)]
  rfl
theorem rhsA_1 (i : S2048x512.Idx) (k : dot_S2048x2048_S512x2048_S2048x512_1_1_0_0_n_n.contr.Idx) :
    (dot_S2048x2048_S512x2048_S2048x512_1_1_0_0_n_n.rhsIdx i k 1).val = (k ⟨0, by decide⟩).val :=
  dot_S2048x2048_S512x2048_S2048x512_1_1_0_0_n_n.rhsIdx_val_of_single rfl i k

/-- The matrix product into the zero accumulator, read at `(p, q)`: the sum over the 2048 queries. -/
theorem matmul_at (u : FVec Ideal S2048x2048 .bf16) (a : FVec Ideal S512x2048 .bf16) (p : Fin 2048) (q : Fin 512) :
    matmul (F := Ideal) dot_S2048x2048_S512x2048_S2048x512_1_1_0_0_n_n none u a (constant (F := Ideal) S2048x512 .f32 0x00000000#32) (ix2 p q)
      = ∑ j : Fin 2048, u (ix2 p j) * a (ix2 q j) := by
  refine (Ideal.matmul_constant_zero_apply dot_S2048x2048_S512x2048_S2048x512_1_1_0_0_n_n none u a (ix2 p q)).trans ?_
  rw [← Equiv.sum_comp (ValueIdx.contrEquiv1 dot_S2048x2048_S512x2048_S2048x512_1_1_0_0_n_n 2048 rfl rfl).symm]
  refine Finset.sum_congr rfl fun k _ => ?_
  have hk := ValueIdx.contrEquiv1_symm_val dot_S2048x2048_S512x2048_S2048x512_1_1_0_0_n_n 2048 rfl rfl k
  have el : dot_S2048x2048_S512x2048_S2048x512_1_1_0_0_n_n.lhsIdx (ix2 p q) ((ValueIdx.contrEquiv1 dot_S2048x2048_S512x2048_S2048x512_1_1_0_0_n_n 2048 rfl rfl).symm k) = ix2 p k := funext fun b => Fin.ext (by
    match b with
    | ⟨0, _⟩ => exact lhsU_0 _ _
    | ⟨1, _⟩ => exact (lhsU_1 _ _).trans hk)
  have er : dot_S2048x2048_S512x2048_S2048x512_1_1_0_0_n_n.rhsIdx (ix2 p q) ((ValueIdx.contrEquiv1 dot_S2048x2048_S512x2048_S2048x512_1_1_0_0_n_n 2048 rfl rfl).symm k) = ix2 q k := funext fun b => Fin.ext (by
    match b with
    | ⟨0, _⟩ => exact rhsA_0 _ _
    | ⟨1, _⟩ => exact (rhsA_1 _ _).trans hk)
  rw [el, er]

/-- The product stage: the contraction of `u` with the numerator, times the column's reciprocal. -/
theorem pay4_apply (u : Vec Ideal S2048x2048 .bf16) (a : Vec Ideal S512x2048 .bf16) (r : Vec Ideal S1x512 .f32) (p : Fin 2048) (q : Fin 512) :
    k0_pay4 (F := Ideal) u a r (ix2 p q) = (∑ j : Fin 2048, u (ix2 p j) * a (ix2 q j)) * r (ix2 (0 : Fin 1) q) := by
  unfold k0_pay4
  show matmul (F := Ideal) dot_S2048x2048_S512x2048_S2048x512_1_1_0_0_n_n none (shapeCast S2048x2048 u shapeCasts_S2048x2048_S2048x2048) a (constant (F := Ideal) S2048x512 .f32 0x00000000#32) (ix2 p q)
      * broadcastTo S2048x512 r broadcasts_S1x512_S2048x512 (ix2 p q) = _
  rw [shapeCast_self]
  exact congr (congrArg (· * ·) (matmul_at u a p q)) (broadcastTo_1b_ab_apply r broadcasts_S1x512_S2048x512 p q)

/-! ## From a block of scores to the array of scores -/

/-- Row `r % 512` of block `r / 512` of the scores is row `r`. -/
theorem rowsOf_apply (s : Vec Ideal S8192x2048 .f32) (r : Fin 8192) (hb : r.val / 512 < 16) (hq : r.val % 512 < 512) (j : Fin 2048) :
    rowsOf (F := Ideal) s ⟨r.val / 512, hb⟩ (ix2 (⟨r.val % 512, hq⟩ : Fin 512) j) = s (ix2 r j) := by
  unfold rowsOf
  exact congrArg s (funext fun a => Fin.ext (by
    match a with
    | ⟨0, _⟩ => exact Nat.div_add_mod r.val 512
    | ⟨1, _⟩ => rfl))

/-- The product stage over the softmax of a block whose row `q` is row `r` of the scores. -/
theorem out_at (ut : Vec Ideal S2048x2048 .bf16) (s : Vec Ideal S8192x2048 .f32) (d : Fin 2048) (r : Fin 8192)
    (X : Vec Ideal S512x2048 .f32) (q : Fin 512) (hX : ∀ j : Fin 2048, X (ix2 q j) = s (ix2 r j)) :
    k0_pay4 (F := Ideal) ut (k0_pay3 (F := Ideal) X) (k0_pay2 (F := Ideal) X) (ix2 d q)
      = (∑ j : Fin 2048, ut (ix2 d j) * Cert.Spec.num s r j) * Ideal.div (Ideal.ofBits .f32 0x3F800000#32) (Cert.Spec.den s r) := by
  have hnum : ∀ j : Fin 2048, k0_pay1 (F := Ideal) X (ix2 q j) = Cert.Spec.num s r j := fun j => by
    refine (pay1_apply X q j).trans ?_
    unfold Cert.Spec.num Cert.Spec.rowMax
    rw [hX j, show (fun j' : Fin 2048 => X (ix2 q j')) = fun j' => s (ix2 r j') from funext hX]
  refine (pay4_apply ut _ _ d q).trans ?_
  refine congr (congrArg (· * ·) (Finset.sum_congr rfl fun j _ =>
    congrArg (ut (ix2 d j) * ·) ((pay3_apply X q j).trans (hnum j)))) ?_
  refine (pay2_apply X q).trans ?_
  unfold Cert.Spec.den
  exact congrArg (Ideal.div (Ideal.ofBits .f32 0x3F800000#32)) (Finset.sum_congr rfl fun j _ => hnum j)

/-- The kernel's whole result at `(d, r)`. -/
theorem KG_apply (ut : Vec Ideal S2048x2048 .bf16) (s : Vec Ideal S8192x2048 .f32) (d : Fin 2048) (r : Fin 8192) :
    KG ut s (ix2 d r) = (∑ j : Fin 2048, ut (ix2 d j) * Cert.Spec.num s r j) * Ideal.div (Ideal.ofBits .f32 0x3F800000#32) (Cert.Spec.den s r) := by
  unfold KG
  exact out_at ut s d r _ _ (rowsOf_apply s r _ _)

end Cert.KernelIdeal.Hand

end
-- ==== Proof.KI.HostUt.lean ====
import proofs.«173379_g77283641524595_feedfinal_129_4_alg».proof.Proof.Gen.KernelIdeal.Frame
import Idealize.ShloMosaic.Lib.StableHlo.Run
import Idealize.ShloMosaic.Lib.Pipeline.Value
import Idealize.ShloMosaic.Lib.ValueIdx
import Idealize.ShloMosaic.Lib.ValueLayout

/-!
The kernel's first operand as the region finds it. Before the region, @main drops the leading unit axis of its
first argument (`[1, 2048, 2048] → [2048, 2048]`), transposes the matrix, and narrows the format, which at extended
reals changes nothing. So the operand at `(d, j)` is the argument at `(0, j, d)`.
-/

noncomputable section

namespace Cert.KernelIdeal.Hand

open Cert.KernelIdeal Cert.KernelIdeal.Gen Idealize.ShloMosaic Idealize.ShloMosaic.TcCoe Idealize.ShloMosaic.ValueIdx Idealize.SL.Sem

/-- The transposed operand read at `(d, j)` is the first argument at `(0, j, d)`: the narrowing is the identity,
    the transpose swaps the two coordinates, and the cast keeps the row-major position `j * 2048 + d`. -/
theorem V_ut_apply (m : (ℓ : Loc nD τ sig) → Buf (Elt Ideal) ℓ) (c : Dev nD) (d j : Fin 2048) :
    (V m c main_v2 : S2048x2048.Idx → EReal) (ix2 d j) = (m ((c.tc : Thread nD τ).loc main_arg0) : S1x2048x2048.Idx → EReal) (ix3 (0 : Fin 1) j d) := by
  have e : (V m c main_v2 : S2048x2048.Idx → EReal)
      = (truncf (F := Ideal) .bf16 (transpose S2048x2048 [1, 0] (shapeCast S2048x2048 (m ((c.tc : Thread nD τ).loc main_arg0) : S1x2048x2048.Idx → EReal) shapeCasts_S1x2048x2048_S2048x2048) transposes_S2048x2048_S2048x2048_1_0 : FVec Ideal S2048x2048 .f32) bitsLt_bf16_f32 : S2048x2048.Idx → EReal) := by
    dsimp only [Gen.V, Gen.hostOps0]; after_results; rfl
  rw [e, truncf_apply, transpose_ix2_apply, shapeCast_1ab_ab_apply]

end Cert.KernelIdeal.Hand

end
-- ==== Proof.RefValue.lean ====
/-
  The reference's value: what its @main computes, read at an index.

  Entry (d, r) of the result is the softmax of row r of the scores contracted with column d of the values:
  the sum over j of (exp (s r j - rowmax r) / rowsum r) * u 0 j d. Each stage of the program is read at an index: the
  row maximum is a fold of max from the bottom element, so taking its maximum with that element again changes
  nothing; the row sum starts from zero; the exponential and the quotient act entry by entry; the contraction is
  a finite sum; the final transposition swaps the two coordinates.
-/
import proofs.«173379_g77283641524595_feedfinal_129_4_alg».proof.Proof.Gen.ReferenceIdeal.Run
import proofs.«173379_g77283641524595_feedfinal_129_4_alg».proof.Proof.Gen.ReferenceIdeal.Read
import proofs.«173379_g77283641524595_feedfinal_129_4_alg».proof.Proof.Spec
import Idealize.ShloMosaic.PureOps.Ideal.Laws
import Idealize.ShloMosaic.PureOps.Reduce
import Idealize.ShloMosaic.Lib.ValueIdx
import Idealize.ShloMosaic.Lib.Pipeline.Value
import Mathlib.Data.Finset.Fold

noncomputable section

namespace Cert.ReferenceIdeal.RefValue

open Cert.ReferenceIdeal Cert.ReferenceIdeal.Gen Cert.ReferenceIdeal.Read Idealize.ShloMosaic Idealize.ShloMosaic.ValueIdx

/-! ## Indices: the composed index functions at coordinates -/

/-- The transposed position of (d, r) is (r, d). -/
theorem idx_v13 (d : Fin 2048) (r : Fin 8192) : idx_main_v13 (ix2 d r) = ix2 r d :=
  funext fun a => Fin.ext (by match a with | ⟨0, _⟩ => rfl | ⟨1, _⟩ => rfl)

/-- The contraction's left operand at (r, d), term j, is read at (r, j). -/
theorem lidx_v12 (r : Fin 8192) (d : Fin 2048) (j : Fin 2048) : lidx_main_v12 (ix2 r d) j = ix2 r j :=
  funext fun a => Fin.ext (by match a with | ⟨0, _⟩ => rfl | ⟨1, _⟩ => rfl)

/-- The contraction's right operand at (r, d), term j, is read at (j, d). -/
theorem ridx_v12 (r : Fin 8192) (d : Fin 2048) (j : Fin 2048) : ridx_main_v12 (ix2 r d) j = ix2 j d :=
  funext fun a => Fin.ext (by match a with | ⟨0, _⟩ => rfl | ⟨1, _⟩ => rfl)

/-- Dropping the leading axis of extent one: (j, d) of the square array is (0, j, d) of the values. -/
theorem idx_v11 (j : Fin 2048) (d : Fin 2048) : idx_main_v11 (ix2 j d) = ix3 (0 : Fin 1) j d :=
  funext fun a => Fin.ext (by
    have hj : j.val < 2048 := j.isLt
    have hd : d.val < 2048 := d.isLt
    match a with
    | ⟨0, _⟩ => rfl
    | ⟨1, _⟩ => show (j.val * 2048 + d.val) / 2048 % 2048 = j.val; omega
    | ⟨2, _⟩ => show (j.val * 2048 + d.val) % 2048 = d.val; omega)

/-- A row statistic broadcast along the row: (r, j) reads the column vector at (r, 0) … -/
theorem idx_v9 (r : Fin 8192) (j : Fin 2048) : idx_main_v9 (ix2 r j) = ix2 r (0 : Fin 1) :=
  funext fun a => Fin.ext (by match a with | ⟨0, _⟩ => rfl | ⟨1, _⟩ => rfl)
theorem idx_v4 (r : Fin 8192) (j : Fin 2048) : idx_main_v4 (ix2 r j) = ix2 r (0 : Fin 1) :=
  funext fun a => Fin.ext (by match a with | ⟨0, _⟩ => rfl | ⟨1, _⟩ => rfl)

/-- … and the column vector at (r, 0) reads the vector at r. -/
theorem idx_v8 (r : Fin 8192) : idx_main_v8 (ix2 r (0 : Fin 1)) = ix1 r :=
  funext fun a => Fin.ext (by match a with | ⟨0, _⟩ => rfl)
theorem idx_v3 (r : Fin 8192) : idx_main_v3 (ix2 r (0 : Fin 1)) = ix1 r :=
  funext fun a => Fin.ext (by match a with | ⟨0, _⟩ => rfl)

/-- Term j of the row sum at r is read at (r, j). -/
theorem idx_v7 (r : Fin 8192) (j : Fin 2048) : idx_main_v7 (ix1 r) j = ix2 r j :=
  funext fun a => Fin.ext (by match a with | ⟨0, _⟩ => rfl | ⟨1, _⟩ => rfl)

/-! ## The row maximum -/

/-- The scores reduce along their second axis to one entry per row. -/
theorem reduces_rows : S8192x2048.Reduces [1] S8192 := by decide

/-- Row r with the column coordinate k put back is the index (r, k). -/
theorem lift_row (h : S8192x2048.Reduces [1] S8192) (r : Fin 8192) (k : Fin (S8192x2048.size 1)) :
    h.lift (ix1 r) k = ix2 r (⟨k.val, k.isLt⟩ : Fin 2048) := by
  funext c; apply Fin.ext
  match c with
  | ⟨0, _⟩ => rfl
  | ⟨1, _⟩ => rfl

/-- The reduce with a maximum body from the bottom element, at row r, is the fold of max over the row. -/
theorem v0_apply (s : (⟨S8192x2048, .f32⟩ : BufTy).Contents (Elt Ideal)) (r : Fin 8192) :
    val_main_v0 (F := Ideal) s (ix1 r) = Cert.Spec.rowMax s r := by
  unfold val_main_v0
  refine Eq.trans (Host.reduce_eq_fold_single (α := Ideal .f32) FloatOps.maximumf s _ reducesTo_S8192x2048_S8192_d1
    reduces_rows h_S_ (ix1 r)) ?_
  have hf : (s ∘ reduces_rows.lift (ix1 r)) = fun k : Fin 2048 => s (ix2 r k) :=
    funext fun k => congrArg s (lift_row reduces_rows r k)
  rw [hf]
  rfl

/-- Taking the maximum of the bottom element with a fold of max that starts from it gives the fold back. -/
theorem max_init_fold (b : EReal) (f : Fin 2048 → EReal) :
    max b ((Finset.univ : Finset (Fin 2048)).fold max b f) = (Finset.univ : Finset (Fin 2048)).fold max b f :=
  max_eq_right ((Finset.le_fold_max b).2 (Or.inl le_rfl))

/-- The maximum stage at row r is the row's maximum. -/
theorem v2_apply (s : (⟨S8192x2048, .f32⟩ : BufTy).Contents (Elt Ideal)) (r : Fin 8192) :
    val_main_v2 (F := Ideal) s (ix1 r) = Cert.Spec.rowMax s r := by
  rw [val_main_v2_apply, val_main_v1_apply, val_main_cst_0_apply, v0_apply, Ideal.maximumf_def, Ideal.ofBits_def]
  exact max_init_fold _ _

/-! ## Numerator, denominator, quotient -/

/-- The exponential stage at (r, j) is the softmax numerator. -/
theorem v6_apply (s : (⟨S8192x2048, .f32⟩ : BufTy).Contents (Elt Ideal)) (r : Fin 8192) (j : Fin 2048) :
    val_main_v6 (F := Ideal) s (ix2 r j) = Cert.Spec.num s r j := by
  rw [val_main_v6_apply, val_main_v5_apply, val_main_v4_apply, idx_v4, val_main_v3_apply, idx_v3, v2_apply,
    Ideal.hostUnary_exp_def, Ideal.subf_def]
  rfl

/-- The row-sum stage at row r is the softmax denominator. -/
theorem v7_apply (s : (⟨S8192x2048, .f32⟩ : BufTy).Contents (Elt Ideal)) (r : Fin 8192) :
    val_main_v7 (F := Ideal) s (ix1 r) = Cert.Spec.den s r := by
  rw [val_main_v7_apply, val_main_cst_1_apply, Ideal.ofBits_def, Ideal.ofBits_zero_f32, zero_add]
  unfold Cert.Spec.den
  exact Finset.sum_congr rfl fun j _ => by rw [idx_v7, v6_apply]

/-- The quotient stage at (r, j) is the normalised entry. -/
theorem v10_apply (s : (⟨S8192x2048, .f32⟩ : BufTy).Contents (Elt Ideal)) (r : Fin 8192) (j : Fin 2048) :
    val_main_v10 (F := Ideal) s (ix2 r j) = Ideal.div (Cert.Spec.num s r j) (Cert.Spec.den s r) := by
  rw [val_main_v10_apply, val_main_v9_apply, idx_v9, val_main_v8_apply, idx_v8, v6_apply, v7_apply,
    Ideal.hostDivf_def]

/-! ## The result -/

/-- Entry (d, r) of the reference's result is the reference's arrangement of the specification. -/
theorem ref_apply (u : (⟨S1x2048x2048, .f32⟩ : BufTy).Contents (Elt Ideal)) (s : (⟨S8192x2048, .f32⟩ : BufTy).Contents (Elt Ideal))
    (d : Fin 2048) (r : Fin 8192) :
    val_main_v13 (F := Ideal) u s (ix2 d r) = Cert.Spec.refForm u s d r := by
  rw [val_main_v13_apply, idx_v13, val_main_v12_apply]
  unfold Cert.Spec.refForm
  exact Finset.sum_congr rfl fun j _ => by
    rw [lidx_v12, ridx_v12, v10_apply, val_main_v11_apply, idx_v11]

end Cert.ReferenceIdeal.RefValue

end
-- ==== Proof.SpecLaw.lean ====
/-
  The two arrangements of the attention-pooled result agree on real inputs. With real scores a row's maximum is a
  real (the row is not empty, so the fold of `max` leaves the bottom element), each softmax numerator is the
  exponential of a real, a positive real, and the denominator a positive real sum. Dividing by it is multiplying
  by its reciprocal, and a real factor moves across a finite sum of reals.
-/
import proofs.«173379_g77283641524595_feedfinal_129_4_alg».proof.Proof.Spec
import Idealize.ShloMosaic.PureOps.Ideal
import Idealize.ShloMosaic.Lib.ValueIdx
import Mathlib.Data.EReal.Basic
import Mathlib.Data.Finset.Fold
import Mathlib.Algebra.BigOperators.Group.Finset.Basic
import Mathlib.Algebra.BigOperators.Ring.Finset
import Mathlib.Algebra.Order.BigOperators.Group.Finset
import Mathlib.Analysis.SpecialFunctions.Exp

noncomputable section

namespace Cert.Spec

open Idealize.ShloMosaic Idealize.ShloMosaic.ValueIdx

/-- The f32 pattern of minus infinity denotes the bottom element. -/
theorem ofBits_negInf_f32 : Ideal.ofBits .f32 0xFF800000#32 = (⊥ : EReal) := by
  simp [Ideal.ofBits, Ideal.ieee]

/-- The f32 pattern of one denotes one. -/
theorem ofBits_one_f32 : Ideal.ofBits .f32 0x3F800000#32 = (1 : EReal) := by
  simp [Ideal.ofBits, Ideal.ieee, -EReal.coe_mul]
  norm_num

/-- A finite sum of reals, read in the extended reals, is the sum of their images. -/
theorem coe_sum {ι : Type} (t : Finset ι) (f : ι → ℝ) :
    ((∑ j ∈ t, f j : ℝ) : EReal) = ∑ j ∈ t, (f j : EReal) := by
  classical
  induction t using Finset.induction_on with
  | empty => simp
  | insert a t ha ih => rw [Finset.sum_insert ha, Finset.sum_insert ha, EReal.coe_add, ih]

/-- With real scores the maximum of a row is a real. -/
theorem rowMax_real (s : SS.Idx → EReal) (hs : ∀ i, ∃ x : ℝ, s i = (x : EReal)) (r : Fin 8192) :
    ∃ M : ℝ, rowMax s r = (M : EReal) := by
  have hbot : rowMax s r ≠ ⊥ := by
    obtain ⟨x, hx⟩ := hs (ix2 r (0 : Fin 2048))
    have hle : (x : EReal) ≤ rowMax s r := by
      unfold rowMax
      exact (Finset.le_fold_max _).mpr (Or.inr ⟨0, Finset.mem_univ _, hx ▸ le_rfl⟩)
    intro h
    rw [h] at hle
    exact absurd (le_bot_iff.mp hle) (EReal.coe_ne_bot x)
  have htop : rowMax s r ≠ ⊤ := by
    have hlt : rowMax s r < ⊤ := by
      unfold rowMax
      refine (Finset.fold_max_lt _).mpr ⟨?_, fun j _ => ?_⟩
      · rw [ofBits_negInf_f32]; exact bot_lt_top
      · obtain ⟨x, hx⟩ := hs (ix2 r j)
        rw [hx]; exact EReal.coe_lt_top x
    exact ne_of_lt hlt
  exact ⟨(rowMax s r).toReal, (EReal.coe_toReal htop hbot).symm⟩

theorem forms_eq (u : SU.Idx → EReal) (s : SS.Idx → EReal) (hu : ∀ i, ∃ x : ℝ, u i = (x : EReal))
    (hs : ∀ i, ∃ x : ℝ, s i = (x : EReal)) (d : Fin 2048) (r : Fin 8192) :
    kernelForm u s d r = refForm u s d r := by
  choose U hU using hu
  choose S hS using hs
  obtain ⟨M, hM⟩ := rowMax_real s (fun i => ⟨S i, hS i⟩) r
  -- the numerators are exponentials of reals
  have hnum : ∀ j : Fin 2048, num s r j = ((Real.exp (S (ix2 r j) - M) : ℝ) : EReal) := by
    intro j
    unfold num
    rw [hM, hS, ← EReal.coe_sub, Ideal.exp_coe]
  -- the denominator is their real sum, and it is positive
  have hden : den s r = ((∑ j : Fin 2048, Real.exp (S (ix2 r j) - M) : ℝ) : EReal) := by
    unfold den
    rw [coe_sum]
    exact Finset.sum_congr rfl fun j _ => hnum j
  have hD : (∑ j : Fin 2048, Real.exp (S (ix2 r j) - M) : ℝ) ≠ 0 := by
    have : 0 < (∑ j : Fin 2048, Real.exp (S (ix2 r j) - M) : ℝ) :=
      Finset.sum_pos (fun j _ => Real.exp_pos _) ⟨0, Finset.mem_univ _⟩
    exact ne_of_gt this
  unfold kernelForm refForm
  rw [hden, Ideal.div_coe hD, ofBits_one_f32, one_mul]
  have hL : (∑ j : Fin 2048, u (ix3 (0 : Fin 1) j d) * num s r j)
      = ((∑ j : Fin 2048, U (ix3 (0 : Fin 1) j d) * Real.exp (S (ix2 r j) - M) : ℝ) : EReal) := by
    refine (Finset.sum_congr rfl fun j _ => ?_).trans (coe_sum _ _).symm
    rw [hU, hnum, EReal.coe_mul]
  have hR : (∑ j : Fin 2048, Ideal.div (num s r j)
        ((∑ j : Fin 2048, Real.exp (S (ix2 r j) - M) : ℝ) : EReal) * u (ix3 (0 : Fin 1) j d))
      = ((∑ j : Fin 2048, Real.exp (S (ix2 r j) - M)
          * (1 / ∑ j : Fin 2048, Real.exp (S (ix2 r j) - M)) * U (ix3 (0 : Fin 1) j d) : ℝ) : EReal) := by
    refine (Finset.sum_congr rfl fun j _ => ?_).trans (coe_sum _ _).symm
    rw [Ideal.div_coe hD, hU, hnum, EReal.coe_mul, EReal.coe_mul]
  rw [hL, hR, ← EReal.coe_mul, Finset.sum_mul]
  exact congrArg _ (Finset.sum_congr rfl fun j _ => by ring)

end Cert.Spec

end
-- ==== Proof.Finite.lean ====
import proofs.«173379_g77283641524595_feedfinal_129_4_alg».proof.Pre_finite_inputs
import proofs.«173379_g77283641524595_feedfinal_129_4_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

/-!
The precondition `finite_inputs`, read back at extended reals: when the printed predicate is all ones,
every entry of both float inputs is a real number (neither infinity nor the junk value).
-/

namespace Cert.FiniteInputs

open Idealize.ShloMosaic Cert.Pre_finite_inputs

/-- The binary32 word with an all-ones exponent, a zero fraction and a clear sign denotes +∞. -/
theorem inf_word : Ideal.ofBits .f32 0x7F800000#32 = (⊤ : EReal) := by
  simp [Ideal.ofBits, Ideal.ieee]

/-- An extended real whose absolute value `max x (-x)` is strictly below the word for +∞ is a real number:
    at `⊥` and at `⊤` the absolute value is `⊤`, which is not below itself. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- The rank-0 shape has one index. -/
instance : Subsingleton S_.Idx := ⟨fun a b => funext fun d => d.elim0⟩

/-- `finite_inputs` all ones: both conjuncts hold, each an `and`-reduction over every entry of the comparison
    `|x| < +∞`, so every entry of either input is a real number. -/
theorem real_of_pre [hP : Cert.Pre_finite_inputs.Facts] (u : FVec Ideal S1x2048x2048 .f32) (s : FVec Ideal S8192x2048 .f32)
    (h : Cert.Pre_finite_inputs.fn (F := Ideal) u s = fun _ => 1#1) :
    (∀ i, ∃ x : ℝ, u i = (x : EReal)) ∧ (∀ i, ∃ x : ℝ, s i = (x : EReal)) := by
  have h0 := congrFun h ValueIdx.ix0
  dsimp only [Cert.Pre_finite_inputs.fn] at h0
  obtain ⟨h1, h2⟩ := IntOp.andi_eq_one.1 h0
  refine ⟨fun i => ?_, fun i => ?_⟩
  · exact real_of_abs_lt_inf (u i) (Host.reduce_andi_all _ _ _ _ _ h1 i)
  · exact real_of_abs_lt_inf (s i) (Host.reduce_andi_all _ _ _ _ _ h2 i)

end Cert.FiniteInputs
-- ==== Proof.Bridge.lean ====
/-
  The two results are one function. At a result index `(d, r)` the kernel's whole-array function is
  `(Σ_j ut[d,j] · num[r,j]) · (1 / den[r])` with `ut[d,j] = u[0,j,d]`, and the reference's run is
  `Σ_j (num[r,j] / den[r]) · u[0,j,d]`; with every input entry real (the precondition) these agree.
-/
import proofs.«173379_g77283641524595_feedfinal_129_4_alg».proof.Proof.KI.ArraySpec
import proofs.«173379_g77283641524595_feedfinal_129_4_alg».proof.Proof.KernelAt
import proofs.«173379_g77283641524595_feedfinal_129_4_alg».proof.Proof.KI.HostUt
import proofs.«173379_g77283641524595_feedfinal_129_4_alg».proof.Proof.RefValue
import proofs.«173379_g77283641524595_feedfinal_129_4_alg».proof.Proof.SpecLaw
import proofs.«173379_g77283641524595_feedfinal_129_4_alg».proof.Proof.Finite
import proofs.«173379_g77283641524595_feedfinal_129_4_alg».proof.Proof.Gen.KernelIdeal.Frame

noncomputable section

namespace Cert.Bridge

open Idealize.ShloMosaic Idealize.ShloMosaic.TcCoe Idealize.ShloMosaic.ValueIdx Idealize.SL.Sem

/-- The reference's last stage, of the kernel's own argument arrays, is the kernel's whole-array function of the
    arrays the region finds. -/
theorem value_eq [hP : Cert.Pre_finite_inputs.Facts] (m : (ℓ : Loc Cert.KernelIdeal.nD Cert.KernelIdeal.τ Cert.KernelIdeal.sig) → Buf (Elt Ideal) ℓ) (c : Dev Cert.KernelIdeal.nD)
    (hpre : Cert.Pre_finite_inputs.fn (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)) = fun _ => 1#1) :
    Cert.ReferenceIdeal.Read.val_main_v13 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
      = Cert.KernelIdeal.Hand.KG (Cert.KernelIdeal.Gen.V m c Cert.KernelIdeal.main_v2) (Cert.KernelIdeal.Gen.V m c Cert.KernelIdeal.main_arg1) := by
  obtain ⟨hu, hs⟩ := Cert.FiniteInputs.real_of_pre _ _ hpre
  funext i
  obtain ⟨d, r, rfl⟩ : ∃ (d : Fin 2048) (r : Fin 8192), i = ix2 d r := ⟨i 0, i 1, eq_ix2 i⟩
  rw [Cert.ReferenceIdeal.RefValue.ref_apply, Cert.KernelIdeal.Hand.KG_apply, Cert.KernelIdeal.Gen.V_main_arg1,
    ← Cert.Spec.forms_eq _ _ hu hs]
  unfold Cert.Spec.kernelForm
  refine congrArg (fun x => x * _) (Finset.sum_congr rfl fun j _ => ?_)
  exact congrArg (fun x => x * _) (Cert.KernelIdeal.Hand.V_ut_apply m c d j).symm

end Cert.Bridge

end
-- ==== Proof.lean ====
/-
  Attention pooling `out[d, t] = Σ_j softmax(s)[t, j] · u[0, j, d]`, computed by a two-stage software pipeline,
  against the plain softmax-then-contract reference.

  The kernel runs a grid of 17 points over 16 blocks of 512 rows of scores. At point `t` it computes the softmax
  numerator `exp (s - rowmax s)` and the reciprocal of its row sums for block `min t 15` into the scratch pair
  of `t`'s parity, and multiplies `ut` with the numerator the point BEFORE left in the other pair, scaling each
  column by that pair's reciprocal, into output block `max (t - 1) 0`. The first point's product reads scratch
  nobody has stored; its block is the one the second point overwrites whole, and no block is written back before
  that, so no array element depends on it. The frames carry, point by point, the fact that the pair of the
  previous point's parity holds that point's numerator and reciprocal; the output block is named from the second
  point on. Over the extended reals with finite inputs the result column `r` is
  `(Σ_j u[0,j,d] · e[r,j]) · (1 / Σ_j e[r,j])`, which is the reference's `Σ_j (e[r,j] / Σ_j' e[r,j']) · u[0,j,d]`
  because the denominator is a positive real.
-/
import proofs.«173379_g77283641524595_feedfinal_129_4_alg».proof.Defs
import proofs.«173379_g77283641524595_feedfinal_129_4_alg».proof.Proof.Gen.Kernel
import proofs.«173379_g77283641524595_feedfinal_129_4_alg».proof.Proof.Gen.KernelIdeal
import proofs.«173379_g77283641524595_feedfinal_129_4_alg».proof.Proof.Gen.ReferenceIdeal
import proofs.«173379_g77283641524595_feedfinal_129_4_alg».proof.Proof.Gen.Pre_finite_inputs
import proofs.«173379_g77283641524595_feedfinal_129_4_alg».proof.Proof.KB.Launch
import proofs.«173379_g77283641524595_feedfinal_129_4_alg».proof.Proof.KI.Launch
import proofs.«173379_g77283641524595_feedfinal_129_4_alg».proof.Proof.Gen.ReferenceIdeal.Run
import proofs.«173379_g77283641524595_feedfinal_129_4_alg».proof.Proof.KI.Value
import proofs.«173379_g77283641524595_feedfinal_129_4_alg».proof.Proof.Bridge
import proofs.«173379_g77283641524595_feedfinal_129_4_alg».proof.Proof.Gen.ReferenceIdeal.Read
import Idealize.ShloMosaic.Adequacy
import Idealize.ShloMosaic.Init

noncomputable section

namespace Cert.Proof

open Idealize.ShloMosaic Idealize.SL.Sem

theorem frame_kernel : Cert.frame_Kernel (hKernel := Cert.Kernel.Gen.facts) (hPre_finite_inputs := Cert.Pre_finite_inputs.Gen.facts) :=
  fun m ρ _ => Cert.Kernel.Hand.frame m ρ

theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- The reference has no kernel: its frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories agreeing on the arguments both programs run; the kernel's result is its whole-array function of
    the arrays its region finds, and the reference's last stage, of the same arguments, is that function. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.KernelIdeal.Hand.KG (Cert.KernelIdeal.Gen.V m c Cert.KernelIdeal.main_v2) (Cert.KernelIdeal.Gen.V m c Cert.KernelIdeal.main_arg1),
    Cert.KernelIdeal.Hand.run_value m ρ, ?_⟩
  refine (θ_run Cert.ReferenceIdeal.defs _ _).mono
    (fun _ h c => ⟨(h c).1.trans ((Cert.ReferenceIdeal.Read.val_main_v13_eq _ _).trans ?_), (h c).2⟩)
    (Cert.ReferenceIdeal.Value.run (F := Ideal) m' ρ')
  rw [(hagree c).1, (hagree c).2]
  exact Cert.Bridge.value_eq (hP := Cert.Pre_finite_inputs.Gen.facts) m c (hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
